-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S256 : Shape := ⟨1, ![256]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S33554432 .f32) (main_arg1 : IVec S33554432 32) (main_arg2 : FVec F S256 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Kernel.lean ====
abbrev S33554432 : Shape := ⟨1, ![33554432]⟩
abbrev S256 : Shape := ⟨1, ![256]⟩
abbrev S2048x16384 : Shape := ⟨2, ![2048, 16384]⟩
abbrev S2x16x16 : Shape := ⟨3, ![2, 16, 16]⟩
abbrev S8x16384 : Shape := ⟨2, ![8, 16384]⟩
abbrev S1x16x16 : Shape := ⟨3, ![1, 16, 16]⟩
abbrev S16x16 : Shape := ⟨2, ![16, 16]⟩
abbrev S8x1x16384 : Shape := ⟨3, ![8, 1, 16384]⟩
abbrev S1x16x1 : Shape := ⟨3, ![1, 16, 1]⟩
abbrev S8x16x16384 : Shape := ⟨3, ![8, 16, 16384]⟩
abbrev S8x16x16 : Shape := ⟨3, ![8, 16, 16]⟩
abbrev S_ : Shape := ⟨0, ![]⟩

abbrev nBuf : Space → Nat
  | .hbm => 25
  | .vmem => 10
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S256, .f32⟩
  | .hbm, ⟨3, _⟩ => ⟨S2048x16384, .f32⟩
  | .hbm, ⟨4, _⟩ => ⟨S2048x16384, .i32⟩
  | .hbm, ⟨5, _⟩ => ⟨S2x16x16, .f32⟩
  | .hbm, ⟨6, _⟩ => ⟨S2x16x16, .f32⟩
  | .hbm, ⟨7, _⟩ => ⟨S_, .f32⟩
  | .hbm, ⟨8, _⟩ => ⟨S16x16, .f32⟩
  | .hbm, ⟨9, _⟩ => ⟨S256, .f32⟩
  | .hbm, ⟨10, _⟩ => ⟨S_, .f32⟩
  | .hbm, ⟨11, _⟩ => ⟨S16x16, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8x16384, .f32⟩
  | .local _ .vmem, ⟨1, _⟩ => ⟨S8x16384, .f32⟩
  | .local _ .vmem, ⟨2, _⟩ => ⟨S8x16384, .i32⟩
  | .local _ .vmem, ⟨3, _⟩ => ⟨S8x16384, .i32⟩
  | .local _ .vmem, ⟨4, _⟩ => ⟨S1x16x16, .f32⟩
  | .local _ .vmem, ⟨5, _⟩ => ⟨S1x16x16, .f32⟩
  | .local _ .vmem, ⟨6, _⟩ => ⟨S1x16x16, .f32⟩
  | .local _ .vmem, ⟨7, _⟩ => ⟨S1x16x16, .f32⟩
  | .local _ .vmem, ⟨8, _⟩ => ⟨S16x16, .f32⟩
  | .local _ .vmem, ⟨9, _⟩ => ⟨S16x16, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v47 : BitVec 1 := Scalar.cmpi .eq arg1 c127_i32
  let v48 : BitVec 32 := Scalar.extui v47
  let c0_i32_15 : BitVec 32 := 0#32
  let v49 : BitVec 1 := Scalar.cmpi .ne v48 c0_i32_15
  v49

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S33554432_S2048x16384 : S33554432.ShapeCasts S2048x16384
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S8x16384_S8x16384_0_0 : ∀ a, (![0, 0] : Fin 2 → Nat) a + S8x16384.size a ≤ S8x16384.size a
  h_S8x16384 : 0 < S8x16384.numel
  shapeCasts_S8x16384_S8x16384 : S8x16384.ShapeCasts S8x16384
  shapeCasts_S8x16384_S8x1x16384 : S8x16384.ShapeCasts S8x1x16384
  bitsLt_bf16_f32 : FTy.bits .bf16 < FTy.bits .f32
  iota_S1x16x1_d1_w32 : S1x16x1.Iotas .tc 32 [1]
  broadcasts_S1x16x1_S8x16x16384 : S1x16x1.Broadcasts S8x16x16384
  broadcasts_S8x1x16384_S8x16x16384 : S8x1x16384.Broadcasts S8x16x16384
  natLt_1_32 : 1 < 32
  reduces_S8x16x16_S16x16 : S8x16x16.Reduces [0] S16x16
  shapeCasts_S16x16_S1x16x16 : S16x16.ShapeCasts S1x16x16
  inb_S1x16x16_S1x16x16_0_0_0 : ∀ a, (![0, 0, 0] : Fin 3 → Nat) a + S1x16x16.size a ≤ S1x16x16.size a
  h_S1x16x16 : 0 < S1x16x16.numel
  reducesTo_S2x16x16_S16x16_d0 : S2x16x16.ReducesTo [0] S16x16
  h_S_ : 0 < S_.numel
  shapeCasts_S16x16_S256 : S16x16.ShapeCasts S256
  bcast_S_S256 : S_.BroadcastsInDim S256 (![] : Fin 0 → Fin S256.rank)
  reducesTo_S256_S_d0 : S256.ReducesTo [0] S_
  dot_S8x16x16384_S8x16x16384_S8x16x16_2_2_1_1_0_0_wf : DotDims.WF S8x16x16384 S8x16x16384 S8x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16384.size a ≤ S2048x16384.size a
  hwx0_0 : ∀ i : grid0.Coords, EltTy.bits .f32 = 32 ∨ (Rect.block (s := S2048x16384) S8x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16384.size a ≤ S2048x16384.size a
  hwx0_1 : ∀ i : grid0.Coords, EltTy.bits .i32 = 32 ∨ (Rect.block (s := S2048x16384) S8x16384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x16.size a ≤ S2x16x16.size a
  hwx0_2 : ∀ i : grid0.Coords, EltTy.bits .f32 = 32 ∨ (Rect.block (s := S2x16x16) S1x16x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x16.size a ≤ S2x16x16.size a
  hwx0_3 : ∀ i : grid0.Coords, EltTy.bits .f32 = 32 ∨ (Rect.block (s := S2x16x16) S1x16x16.size (cc0_transform_3 i) (hinb0_3 i)).WholeWords (EltTy.packing .f32)

variable [Facts₀]

def dot_S8x16x16384_S8x16x16384_S8x16x16_2_2_1_1_0_0 : DotDims S8x16x16384 S8x16x16384 S8x16x16 where
  lhsContracting := [2]
  rhsContracting := [2]
  lhsNonContracting := [1]
  rhsNonContracting := [1]
  lhsBatch := [0]
  rhsBatch := [0]
  wf := dot_S8x16x16384_S8x16x16384_S8x16x16_2_2_1_1_0_0_wf

abbrev win0_0 : Pipeline.Window sig grid0 :=
  Pipeline.Window.ofSpec (Memref.whole main_v0) S8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S33554432 : Shape := ⟨1, ![33554432]⟩
abbrev S256 : Shape := ⟨1, ![256]⟩
abbrev S_ : Shape := ⟨0, ![]⟩
abbrev S33554432x1 : Shape := ⟨2, ![33554432, 1]⟩

abbrev nBuf : Space → Nat
  | .hbm => 25
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S33554432x1, .i32⟩
  | .hbm, ⟨6, _⟩ => ⟨S256, .f32⟩
  | .hbm, ⟨7, _⟩ => ⟨S_, .f32⟩
  | .hbm, ⟨8, _⟩ => ⟨S33554432, .f32⟩
  | .hbm, ⟨9, _⟩ => ⟨S_, .f32⟩
  | .hbm, ⟨10, _⟩ => ⟨S256, .f32⟩
  | .hbm, ⟨11, _⟩ => ⟨S33554432x1, .i32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S33554432_S33554432x1_0 : S33554432.BroadcastsInDim S33554432x1 (![0] : Fin 1 → Fin S33554432x1.rank)
  bcast_S_S33554432 : S_.BroadcastsInDim S33554432 (![] : Fin 0 → Fin S33554432.rank)
  reducesTo_S256_S_d0 : S256.ReducesTo [0] S_
  h_S_ : 0 < S_.numel
  scatter_S256_S33554432x1_S33554432_n_0_0_1_wf : ScatterDims.WF S256 S33554432x1 S33554432 [] [0] [0] 1

variable [Facts₀]

def scatter_S256_S33554432x1_S33554432_n_0_0_1 : ScatterDims S256 S33554432x1 S33554432 where
  updateWindowDims := []
  insertedWindowDims := [0]
  scatterDimsToOperandDims := [0]
  indexVectorDim := 1
  wf := scatter_S256_S33554432x1_S33554432_n_0_0_1_wf

class Facts : Prop extends Facts₀ where

variable [Facts]
-- ==== Proof.SegDefs.lean ====
/-
  The mathematics shared by both programs of this certificate.

  Every element e of the flat input carries a value x(e) and a 32-bit word idx(e). Read signed, the word names one
  of 256 classes, written 16c + d with c, d in [0, 16), or no class at all. Both programs form, per class, the sum
  of the values and the number of the elements of that class, and then apply one and the same closing computation:
  the mean (the sum over the count, the count raised to at least one), its squared distance from a target, the
  average of those over the 256 classes, and a scale.
-/
import Idealize.ShloMosaic.PureOps.Ideal
import Idealize.ShloMosaic.PureOps.Ideal.Laws
import Idealize.ShloMosaic.Lib.ValueIdx

noncomputable section

open scoped BigOperators

namespace Cert.Seg

open Idealize.ShloMosaic Idealize.ShloMosaic.ValueIdx

/-- The flat element axis, the class axis, the scalar shape, and one block of eight rows of 16384 lanes. -/
abbrev SE : Shape := ⟨1, ![33554432]⟩
abbrev SK : Shape := ⟨1, ![256]⟩
abbrev S0 : Shape := ⟨0, ![]⟩
abbrev SB : Shape := ⟨2, ![8, 16384]⟩

/-- The word `w`, read signed, is the class number 16c + d. -/
def Hits (w : BitVec 32) (c d : Fin 16) : Prop := w.toInt = 16 * (c.val : Int) + (d.val : Int)

instance (w : BitVec 32) (c d : Fin 16) : Decidable (Hits w c d) := by unfold Hits; infer_instance

/-- One block's share of the sum of class (c, d): the block's values at the elements whose word names the class. -/
def blockSum (xb : SB.Idx → EReal) (ib : SB.Idx → BitVec 32) (c d : Fin 16) : EReal :=
  ∑ b : Fin 8, ∑ l : Fin 16384, if Hits (ib (ix2 b l)) c d then xb (ix2 b l) else 0

/-- One block's share of the count of class (c, d). -/
def blockCnt (ib : SB.Idx → BitVec 32) (c d : Fin 16) : EReal :=
  ∑ b : Fin 8, ∑ l : Fin 16384, if Hits (ib (ix2 b l)) c d then (1 : EReal) else 0

/-- The sum of the values of class k over the whole input. -/
def segSum (x : SE.Idx → EReal) (idx : SE.Idx → BitVec 32) : SK.Idx → EReal := fun k =>
  ∑ e ∈ Finset.univ.filter (fun e : Fin 33554432 => (idx (ix1 e)).toInt = ((k 0).val : Int)), x (ix1 e)

/-- The number of elements of class k over the whole input. -/
def segCnt (idx : SE.Idx → BitVec 32) : SK.Idx → EReal := fun k =>
  ∑ e ∈ Finset.univ.filter (fun e : Fin 33554432 => (idx (ix1 e)).toInt = ((k 0).val : Int)), (1 : EReal)

/-- A running sum over the steps 0, 1, 2, … that starts afresh at every multiple of `P`. -/
def runAcc {α : Type} [AddCommMonoid α] (P : ℕ) (f : ℕ → α) : ℕ → α
  | 0 => f 0
  | n + 1 => if (n + 1) % P = 0 then f (n + 1) else runAcc P f n + f (n + 1)

/-- The closing computation both programs share, on the per-class sums `s`, counts `cnt` and targets `tm`:
    mean = s / max(cnt, 1); the average over the classes of (mean - tm)², scaled. -/
def tailFn (hb : S0.BroadcastsInDim SK (![] : Fin 0 → Fin SK.rank)) (hr : SK.ReducesTo [0] S0) (h0 : 0 < S0.numel)
    (s cnt tm : FVec Ideal SK .f32) : FVec Ideal S0 .f32 :=
  mulf (Host.divf
      (Host.reduceAdd
        (mulf (subf (Host.divf s (maximumf cnt (broadcastInDim SK ![] hb (constant (F := Ideal) S0 .f32 0x3F800000#32)))) tm)
              (subf (Host.divf s (maximumf cnt (broadcastInDim SK ![] hb (constant (F := Ideal) S0 .f32 0x3F800000#32)))) tm))
        (constant (F := Ideal) S0 .f32 0x00000000#32) hr h0)
      (constant (F := Ideal) S0 .f32 0x43800000#32))
    (constant (F := Ideal) S0 .f32 0x3C23D70A#32)

end Cert.Seg

end
-- ==== Proof.SegSums.lean ====
/-
  Sums over the flat input, laid out in blocks.

  A running sum that starts afresh every P steps holds, after the last step of a period, the sum over that period.
  The 2^25 flat entries are 2 halves × 128 steps × 8 rows × 16384 lanes, entry ((128p + r)·8 + b)·16384 + l; summing
  the block shares over all steps is the sum over the whole input of the values whose word names the class.
-/
import proofs.«427968_j43104291782997_3_alg».proof.Proof.SegDefs
import Mathlib.Algebra.BigOperators.Fin
import Mathlib.Algebra.BigOperators.Intervals

noncomputable section

open scoped BigOperators

namespace Cert.Seg

open Idealize.ShloMosaic Idealize.ShloMosaic.ValueIdx

/-- At a multiple of the period the running sum holds just that step's term. -/
private theorem runAcc_mul {α : Type} [AddCommMonoid α] (P : ℕ) (f : ℕ → α) (p : ℕ) :
    runAcc P f (P * p) = f (P * p) := by
  cases h : P * p with
  | zero => rfl
  | succ n =>
    have hm : (n + 1) % P = 0 := by rw [← h]; exact Nat.mul_mod_right P p
    show (if (n + 1) % P = 0 then f (n + 1) else runAcc P f n + f (n + 1)) = f (n + 1)
    rw [if_pos hm]

/-- Away from the multiples of the period the running sum adds the step's term. -/
private theorem runAcc_step {α : Type} [AddCommMonoid α] (P : ℕ) (f : ℕ → α) (n : ℕ) (h : (n + 1) % P ≠ 0) :
    runAcc P f (n + 1) = runAcc P f n + f (n + 1) := by
  show (if (n + 1) % P = 0 then f (n + 1) else runAcc P f n + f (n + 1)) = runAcc P f n + f (n + 1)
  rw [if_neg h]

/-- Inside period `p`, after `r + 1` steps, the running sum is the sum of those steps' terms. -/
private theorem runAcc_period {α : Type} [AddCommMonoid α] (P : ℕ) (f : ℕ → α) (p : ℕ) :
    ∀ r : ℕ, r < P → runAcc P f (P * p + r) = ∑ i ∈ Finset.range (r + 1), f (P * p + i)
  | 0, _ => by
    rw [Nat.add_zero, runAcc_mul, Finset.sum_range_one, Nat.add_zero]
  | r + 1, hr => by
    have h1 : (P * p + r + 1) % P ≠ 0 := by
      rw [Nat.add_assoc, Nat.mul_add_mod, Nat.mod_eq_of_lt hr]
      omega
    have ih := runAcc_period P f p r (by omega)
    rw [Finset.sum_range_succ _ (r + 1), ← ih]
    exact runAcc_step P f (P * p + r) h1

/-- After the last step of period `p` the running sum is the sum over that period. -/
theorem runAcc_last {α : Type} [AddCommMonoid α] (P : ℕ) (hP : 0 < P) (f : ℕ → α) (p : ℕ) :
    runAcc P f (P * p + (P - 1)) = ∑ r ∈ Finset.range P, f (P * p + r) := by
  have h := runAcc_period P f p (P - 1) (by omega)
  have hP1 : P - 1 + 1 = P := by omega
  rw [hP1] at h
  exact h

/-- A double sum over `a < A`, `b < B` of a function of `B * a + b` is the single sum over all numbers below `A * B`. -/
private theorem sum_fin_mul {M : Type} [AddCommMonoid M] (A B N : ℕ) (hN : A * B = N) (G : ℕ → M) :
    ∑ a : Fin A, ∑ b : Fin B, G (B * a.val + b.val) = ∑ e : Fin N, G e.val := by
  subst hN
  rw [← Equiv.sum_comp finProdFinEquiv (fun e : Fin (A * B) => G e.val), Fintype.sum_prod_type]
  refine Finset.sum_congr rfl (fun a _ => Finset.sum_congr rfl (fun b _ => ?_))
  have hv : (finProdFinEquiv (a, b)).val = B * a.val + b.val := by
    show b.val + B * a.val = B * a.val + b.val
    omega
  rw [hv]

/-- A function on the numbers below `N`, continued by zero to all natural numbers. -/
private def liftFin {M : Type} [Zero M] (N : ℕ) (F : Fin N → M) : ℕ → M :=
  fun e => if h : e < N then F ⟨e, h⟩ else 0

private theorem liftFin_lt {M : Type} [Zero M] (N : ℕ) (F : Fin N → M) (e : ℕ) (h : e < N) :
    liftFin N F e = F ⟨e, h⟩ := dif_pos h

/-- The four-fold sum over halves, steps, rows and lanes is the sum over all 2^25 flat positions. -/
private theorem sum_layout {M : Type} [AddCommMonoid M] (G : ℕ → M) :
    ∑ p : Fin 2, ∑ r ∈ Finset.range 128, ∑ b : Fin 8, ∑ l : Fin 16384,
        G ((8 * (128 * p.val + r) + b.val) * 16384 + l.val)
      = ∑ e : Fin 33554432, G e.val := by
  have h3 : ∑ m : Fin 2048, ∑ l : Fin 16384, G (m.val * 16384 + l.val) = ∑ e : Fin 33554432, G e.val := by
    rw [← sum_fin_mul 2048 16384 33554432 (by norm_num) G]
    refine Finset.sum_congr rfl (fun m _ => Finset.sum_congr rfl (fun l _ => ?_))
    rw [Nat.mul_comm]
  have h2 : ∑ n : Fin 256, ∑ b : Fin 8, ∑ l : Fin 16384, G ((8 * n.val + b.val) * 16384 + l.val)
      = ∑ m : Fin 2048, ∑ l : Fin 16384, G (m.val * 16384 + l.val) :=
    sum_fin_mul 256 8 2048 (by norm_num) (fun m => ∑ l : Fin 16384, G (m * 16384 + l.val))
  have h1 : ∑ p : Fin 2, ∑ r : Fin 128, ∑ b : Fin 8, ∑ l : Fin 16384,
        G ((8 * (128 * p.val + r.val) + b.val) * 16384 + l.val)
      = ∑ n : Fin 256, ∑ b : Fin 8, ∑ l : Fin 16384, G ((8 * n.val + b.val) * 16384 + l.val) :=
    sum_fin_mul 2 128 256 (by norm_num)
      (fun n => ∑ b : Fin 8, ∑ l : Fin 16384, G ((8 * n + b.val) * 16384 + l.val))
  rw [← h3, ← h2, ← h1]
  refine Finset.sum_congr rfl (fun p _ => ?_)
  rw [Finset.sum_range]

/-- One block's share, read off the flat input: block number `n` holds the flat positions (8n + b)·16384 + l. -/
private theorem blockSum_flat (x : SE.Idx → EReal) (idx : SE.Idx → BitVec 32)
    (xb : SB.Idx → EReal) (ib : SB.Idx → BitVec 32) (n : ℕ) (hn : n < 256)
    (hx : ∀ (b : Fin 8) (l : Fin 16384),
      xb (ix2 b l) = x (ix1 ⟨(8 * n + b.val) * 16384 + l.val, by have := b.isLt; have := l.isLt; omega⟩))
    (hi : ∀ (b : Fin 8) (l : Fin 16384),
      ib (ix2 b l) = idx (ix1 ⟨(8 * n + b.val) * 16384 + l.val, by have := b.isLt; have := l.isLt; omega⟩))
    (c d : Fin 16) :
    blockSum xb ib c d = ∑ b : Fin 8, ∑ l : Fin 16384,
      liftFin 33554432 (fun e : Fin 33554432 => if Hits (idx (ix1 e)) c d then x (ix1 e) else 0)
        ((8 * n + b.val) * 16384 + l.val) := by
  unfold blockSum
  refine Finset.sum_congr rfl (fun b _ => Finset.sum_congr rfl (fun l _ => ?_))
  rw [hx b l, hi b l, liftFin_lt _ _ _ (by have := b.isLt; have := l.isLt; omega)]

/-- The block shares of class (c, d)'s sum, over both halves and all 128 steps, make the class's sum over the whole
    input. -/
theorem segSum_blocks (x : SE.Idx → EReal) (idx : SE.Idx → BitVec 32)
    (xb : ℕ → SB.Idx → EReal) (ib : ℕ → SB.Idx → BitVec 32)
    (hx : ∀ (n : ℕ) (hn : n < 256) (b : Fin 8) (l : Fin 16384),
      xb n (ix2 b l) = x (ix1 ⟨(8 * n + b.val) * 16384 + l.val, by have := b.isLt; have := l.isLt; omega⟩))
    (hi : ∀ (n : ℕ) (hn : n < 256) (b : Fin 8) (l : Fin 16384),
      ib n (ix2 b l) = idx (ix1 ⟨(8 * n + b.val) * 16384 + l.val, by have := b.isLt; have := l.isLt; omega⟩))
    (c d : Fin 16) :
    ∑ p : Fin 2, ∑ r ∈ Finset.range 128, blockSum (xb (128 * p.val + r)) (ib (128 * p.val + r)) c d
      = segSum x idx (ix1 ⟨16 * c.val + d.val, by have := c.isLt; have := d.isLt; omega⟩) := by
  have hL : ∀ p : Fin 2, ∀ r ∈ Finset.range 128,
      blockSum (xb (128 * p.val + r)) (ib (128 * p.val + r)) c d
        = ∑ b : Fin 8, ∑ l : Fin 16384,
          liftFin 33554432 (fun e : Fin 33554432 => if Hits (idx (ix1 e)) c d then x (ix1 e) else 0)
            ((8 * (128 * p.val + r) + b.val) * 16384 + l.val) := by
    intro p r hr
    have hn : 128 * p.val + r < 256 := by
      have := p.isLt
      have := Finset.mem_range.mp hr
      omega
    exact blockSum_flat x idx _ _ _ hn (hx _ hn) (hi _ hn) c d
  rw [Finset.sum_congr rfl (fun p _ => Finset.sum_congr rfl (hL p)), sum_layout]
  unfold segSum
  rw [Finset.sum_filter]
  refine Finset.sum_congr rfl (fun e _ => ?_)
  rw [liftFin_lt _ _ _ e.isLt]
  refine if_congr ?_ rfl rfl
  unfold Hits
  have hk : ((16 * c.val + d.val : ℕ) : ℤ) = 16 * (c.val : ℤ) + (d.val : ℤ) := by push_cast; rfl
  show (idx (ix1 e)).toInt = 16 * (c.val : ℤ) + (d.val : ℤ) ↔ (idx (ix1 e)).toInt = ((16 * c.val + d.val : ℕ) : ℤ)
  rw [hk]

/-- The same for the counts. -/
theorem segCnt_blocks (idx : SE.Idx → BitVec 32) (ib : ℕ → SB.Idx → BitVec 32)
    (hi : ∀ (n : ℕ) (hn : n < 256) (b : Fin 8) (l : Fin 16384),
      ib n (ix2 b l) = idx (ix1 ⟨(8 * n + b.val) * 16384 + l.val, by have := b.isLt; have := l.isLt; omega⟩))
    (c d : Fin 16) :
    ∑ p : Fin 2, ∑ r ∈ Finset.range 128, blockCnt (ib (128 * p.val + r)) c d
      = segCnt idx (ix1 ⟨16 * c.val + d.val, by have := c.isLt; have := d.isLt; omega⟩) :=
  segSum_blocks (fun _ => (1 : EReal)) idx (fun _ _ => (1 : EReal)) ib (fun _ _ _ _ => rfl) hi c d

end Cert.Seg

end
-- ==== Proof.KBlocks.lean ====
/-
  The blocks the kernel's grid steps read, as parts of the two flat input arrays.

  The host lays each flat array of 2^25 entries out as 2048 rows of 16384 lanes (row-major, so entry (R, l) is flat
  entry 16384·R + l), and grid step n (n = 128·p + r for the step (p, r)) reads rows 8n … 8n + 7. So entry (b, l) of
  step n's block is flat entry (8n + b)·16384 + l.
-/
import proofs.«427968_j43104291782997_3_alg».proof.Proof.Gen.KernelIdeal.Frame
import proofs.«427968_j43104291782997_3_alg».proof.Proof.SegDefs
import Idealize.ShloMosaic.Lib.Pipeline.Value
import Idealize.ShloMosaic.Lib.StableHlo.Run

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen Cert.Seg

variable (m : (ℓ : Loc nD τ sig) → Buf (Elt Ideal) ℓ)

/-- Step `n`'s block of values (nothing beyond the grid's 256 steps). -/
def xblk (c : Dev nD) (n : ℕ) : SB.Idx → EReal :=
  if h : n < cfg0.N then (iblk m c 0 ⟨n, h⟩ : Vec Ideal S8x16384 .f32) else fun _ => 0

/-- Step `n`'s block of words. -/
def wblk (c : Dev nD) (n : ℕ) : SB.Idx → BitVec 32 :=
  if h : n < cfg0.N then (iblk m c 1 ⟨n, h⟩ : Vec Ideal S8x16384 .i32) else fun _ => 0

theorem xblk_of_lt (c : Dev nD) (n : ℕ) (h : n < cfg0.N) : xblk m c n = (iblk m c 0 ⟨n, h⟩ : Vec Ideal S8x16384 .f32) := dif_pos h
theorem wblk_of_lt (c : Dev nD) (n : ℕ) (h : n < cfg0.N) : wblk m c n = (iblk m c 1 ⟨n, h⟩ : Vec Ideal S8x16384 .i32) := dif_pos h

/-- Step t reads, in both laid-out arrays, the rows 8t … 8t + 7 and every lane: the block index is (t, 0). -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The values as the grid finds them: the first argument laid out as 2048 rows of 16384 lanes. -/
theorem V_v0 (c : Dev nD) : (V m c main_v0 : Vec Ideal S2048x16384 .f32)
    = shapeCast S2048x16384 (m ((c.tc : Thread nD τ).loc main_arg0) : Vec Ideal S33554432 .f32) shapeCasts_S33554432_S2048x16384 := by
  show StableHlo.after hostOps0 (fun b => m (c, b)) (Proc.devRef .tc main_v0) = _
  after_results
  rfl

/-- The words as the grid finds them: the second argument laid out the same way. -/
theorem V_v1 (c : Dev nD) : (V m c main_v1 : Vec Ideal S2048x16384 .i32)
    = shapeCast S2048x16384 (m ((c.tc : Thread nD τ).loc main_arg1) : Vec Ideal S33554432 .i32) shapeCasts_S33554432_S2048x16384 := by
  show StableHlo.after hostOps0 (fun b => m (c, b)) (Proc.devRef .tc main_v1) = _
  after_results
  rfl

/-- Entry (b, l) of step n's block of values is flat entry (8n + b)·16384 + l of the first argument. -/
theorem xblk_apply (c : Dev nD) (n : ℕ) (hn : n < 256) (b : Fin 8) (l : Fin 16384) :
    xblk m c n (ix2 b l) = (m ((c.tc : Thread nD τ).loc main_arg0) : Vec Ideal S33554432 .f32)
      (ix1 ⟨(8 * n + b.val) * 16384 + l.val, by have := b.isLt; have := l.isLt; omega⟩) := by
  have h : n < cfg0.N := by rw [show cfg0.N = 256 from N_0]; exact hn
  rw [xblk_of_lt m c n h]
  unfold iblk
  rw [View.read_apply]
  show (V m c main_v0 : Vec Ideal S2048x16384 .f32) (((cfg0.win 0).blk ⟨n, h⟩).view.emb (ix2 b l)) = _
  rw [V_v0 m c]
  refine shapeCast_apply _ _ _ _ ?_
  rw [Shape.rowMajor_val_two]
  refine (Shape.rowMajor_val_one (d := ![33554432]) _).trans ?_
  show (8 * n + b.val) * 16384 + l.val
    = (win0_0.index ⟨n, h⟩ 0 * 8 + 1 * b.val) * 16384 + (win0_0.index ⟨n, h⟩ 1 * 16384 + 1 * l.val)
  rw [(idx_facts0 ⟨n, h⟩).1, (idx_facts0 ⟨n, h⟩).2]
  show (8 * n + b.val) * 16384 + l.val = (n * 8 + 1 * b.val) * 16384 + (0 * 16384 + 1 * l.val)
  omega

/-- Entry (b, l) of step n's block of words is flat entry (8n + b)·16384 + l of the second argument. -/
theorem wblk_apply (c : Dev nD) (n : ℕ) (hn : n < 256) (b : Fin 8) (l : Fin 16384) :
    wblk m c n (ix2 b l) = (m ((c.tc : Thread nD τ).loc main_arg1) : Vec Ideal S33554432 .i32)
      (ix1 ⟨(8 * n + b.val) * 16384 + l.val, by have := b.isLt; have := l.isLt; omega⟩) := by
  have h : n < cfg0.N := by rw [show cfg0.N = 256 from N_0]; exact hn
  rw [wblk_of_lt m c n h]
  unfold iblk
  rw [View.read_apply]
  show (V m c main_v1 : Vec Ideal S2048x16384 .i32) (((cfg0.win 1).blk ⟨n, h⟩).view.emb (ix2 b l)) = _
  rw [V_v1 m c]
  refine shapeCast_apply _ _ _ _ ?_
  rw [Shape.rowMajor_val_two]
  refine (Shape.rowMajor_val_one (d := ![33554432]) _).trans ?_
  show (8 * n + b.val) * 16384 + l.val
    = (win0_1.index ⟨n, h⟩ 0 * 8 + 1 * b.val) * 16384 + (win0_1.index ⟨n, h⟩ 1 * 16384 + 1 * l.val)
  rw [(idx_facts1 ⟨n, h⟩).1, (idx_facts1 ⟨n, h⟩).2]
  show (8 * n + b.val) * 16384 + l.val = (n * 8 + 1 * b.val) * 16384 + (0 * 16384 + 1 * l.val)
  omega

end Cert.KernelIdeal.Blocks

end
-- ==== Proof.WordSplit.lean ====
/-
  A 32-bit word and its two parts.

  Read signed, a word is 16 times its arithmetic shift by four plus its low four bits; so for c, d in [0, 16) the word
  is the class number 16c + d exactly when the shift is c and the low four bits are d. A negative word has a negative
  shift, and a word of 256 or more a shift of 16 or more: neither names a class.
-/
import proofs.«427968_j43104291782997_3_alg».proof.Proof.SegDefs

noncomputable section

open scoped BigOperators

namespace Cert.Seg

/-- The word is 16c + d exactly when its arithmetic shift by four is c and its low four bits are d. -/
theorem hits_iff (w : BitVec 32) (c d : Fin 16) :
    Hits w c d ↔ (w.sshiftRight 4).toInt = (c.val : Int) ∧ (w &&& 15#32).toInt = (d.val : Int) := by
  unfold Hits
  have hT : w.toNat < 2 ^ 32 := w.isLt
  have hand : (w &&& 15#32).toNat = w.toNat % 16 := by
    rw [BitVec.toNat_and]
    show w.toNat &&& 15 = w.toNat % 16
    exact Nat.and_two_pow_sub_one_eq_mod w.toNat 4
  have hlo : (w &&& 15#32).toInt = ((w.toNat % 16 : ℕ) : Int) := by
    rw [BitVec.toInt_eq_toNat_of_lt (by rw [hand]; omega), hand]
  have hhi : (w.sshiftRight 4).toInt = w.toInt / 16 := by
    rw [BitVec.toInt_sshiftRight, Int.shiftRight_eq_div_pow]
    rfl
  have hw := BitVec.toInt_eq_toNat_cond w
  have hc := c.isLt
  have hd := d.isLt
  rw [hlo, hhi]
  split_ifs at hw <;> omega

end Cert.Seg

end
-- ==== Proof.PayIdx.lean ====
/-
  The kernel body's arithmetic, read entry by entry on the extended reals.

  A block holds eight rows of 16384 values x and words w. For the class (c, d) the body forms, per row, the sum over
  the lanes of ([c = w >> 4] · x) · [d = w & 15], then adds the eight rows and the carried accumulator. A word read
  signed equals 16c + d exactly when its arithmetic shift by four is c and its low four bits are d, so each term is
  x when the word names the class and 0 otherwise.
-/
import proofs.«427968_j43104291782997_3_alg».proof.Proof.Gen.KernelIdeal.Skeleton
import proofs.«427968_j43104291782997_3_alg».proof.Proof.SegDefs
import proofs.«427968_j43104291782997_3_alg».proof.Proof.WordSplit
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.PayIdx

open Idealize.ShloMosaic Idealize.ShloMosaic.ValueIdx Cert.KernelIdeal Cert.KernelIdeal.Gen Cert.Seg

/-- The comparison of two words, each read as a real, widened and read as a real again, is 1 where the words are equal
    as signed integers and 0 elsewhere. -/
theorem onehot_eq (a b : BitVec 32) :
    (FloatOps.sitofp (F := Ideal) .f32
      ((FloatOps.cmpf (F := Ideal) (φ := .bf16) .oeq (FloatOps.sitofp .bf16 a) (FloatOps.sitofp .bf16 b)).setWidth 32) : EReal)
      = if a.toInt = b.toInt then 1 else 0 := by
  have key : (((a.toInt : ℝ) : EReal) = ((b.toInt : ℝ) : EReal)) ↔ a.toInt = b.toInt := by
    rw [EReal.coe_eq_coe_iff, Int.cast_inj]
  show ((((BitVec.ofBool (decide (((a.toInt : ℝ) : EReal) = ((b.toInt : ℝ) : EReal)))).setWidth 32).toInt : ℝ) : EReal) = _
  by_cases h : a.toInt = b.toInt
  · have e : ((BitVec.ofBool true).setWidth 32).toInt = 1 := by decide
    rw [if_pos h, decide_eq_true (key.mpr h), e, Int.cast_one, EReal.coe_one]
  · have e : ((BitVec.ofBool false).setWidth 32).toInt = 0 := by decide
    rw [if_neg h, decide_eq_false (mt key.mp h), e, Int.cast_zero, EReal.coe_zero]

/-- The index inserted on the summed axis. -/
theorem lift_ix (h : S8x16x16.Reduces [0] S16x16) (c d : Fin 16) (k : Fin 8) : h.lift (ix2 c d) k = ix3 k c d := by
  funext a
  apply Fin.ext
  match a with
  | ⟨0, _⟩ => rfl
  | ⟨1, _⟩ => rfl
  | ⟨2, _⟩ => rfl

/-- The batched product into the zero accumulator: at (b, c, d) the sum over the lanes of the products of row (b, c)
    of the left operand and row (b, d) of the right one. -/
theorem bmm_apply (A B : FVec Ideal S8x16x16384 .bf16) (b : Fin 8) (c d : Fin 16) :
    matmul dot_S8x16x16384_S8x16x16384_S8x16x16_2_2_1_1_0_0 none A B (constant (F := Ideal) S8x16x16 .f32 0x00000000#32) (ix3 b c d)
      = ∑ l : Fin 16384, A (ix3 b c l) * B (ix3 b d l) := by
  show FloatOps.matmul _ none A B _ (ix3 b c d) = _
  rw [Ideal.matmul_constant_zero_apply,
    ← Equiv.sum_comp (contrEquiv1 dot_S8x16x16384_S8x16x16384_S8x16x16_2_2_1_1_0_0 16384 rfl rfl).symm]
  refine Finset.sum_congr rfl fun l _ => ?_
  have cv := contrEquiv1_symm_val dot_S8x16x16384_S8x16x16384_S8x16x16_2_2_1_1_0_0 16384 rfl rfl l
  have hl : dot_S8x16x16384_S8x16x16384_S8x16x16_2_2_1_1_0_0.lhsIdx (ix3 b c d)
      ((contrEquiv1 dot_S8x16x16384_S8x16x16384_S8x16x16_2_2_1_1_0_0 16384 rfl rfl).symm l) = ix3 b c l := by
    funext ax
    apply Fin.ext
    match ax with
    | ⟨0, _⟩ => simp [DotDims.lhsIdx, dot_S8x16x16384_S8x16x16384_S8x16x16_2_2_1_1_0_0]; rfl
    | ⟨1, _⟩ => simp [DotDims.lhsIdx, dot_S8x16x16384_S8x16x16384_S8x16x16_2_2_1_1_0_0]; rfl
    | ⟨2, _⟩ => simp [DotDims.lhsIdx, dot_S8x16x16384_S8x16x16384_S8x16x16_2_2_1_1_0_0]; exact cv
  have hr : dot_S8x16x16384_S8x16x16384_S8x16x16_2_2_1_1_0_0.rhsIdx (ix3 b c d)
      ((contrEquiv1 dot_S8x16x16384_S8x16x16384_S8x16x16_2_2_1_1_0_0 16384 rfl rfl).symm l) = ix3 b d l := by
    funext ax
    apply Fin.ext
    match ax with
    | ⟨0, _⟩ => simp [DotDims.rhsIdx, dot_S8x16x16384_S8x16x16384_S8x16x16_2_2_1_1_0_0]; rfl
    | ⟨1, _⟩ => simp [DotDims.rhsIdx, dot_S8x16x16384_S8x16x16384_S8x16x16_2_2_1_1_0_0]; rfl
    | ⟨2, _⟩ => simp [DotDims.rhsIdx, dot_S8x16x16384_S8x16x16384_S8x16x16_2_2_1_1_0_0]; exact cv
  rw [hl, hr]

/-- The class column (the numbers 0 … 15 along the middle axis), repeated over rows and lanes, reads its class number. -/
theorem classCol_apply (h : S1x16x1.Broadcasts S8x16x16384) (hi : S1x16x1.Iotas .tc 32 [1])
    (b : Fin 8) (c : Fin 16) (l : Fin 16384) :
    broadcastTo S8x16x16384 (sitofp (F := Ideal) .bf16 (iota .tc S1x16x1 32 [1] hi)) h (ix3 b c l)
      = FloatOps.sitofp (F := Ideal) .bf16 (BitVec.ofNat 32 c.val) := by
  refine (broadcastTo_apply _ h (ix3 b c l) (ix3 (0 : Fin 1) c (0 : Fin 1)) fun a => ?_).trans ?_
  · match a with
    | ⟨0, _⟩ => rfl
    | ⟨1, _⟩ => rfl
    | ⟨2, _⟩ => rfl
  · show FloatOps.sitofp (F := Ideal) .bf16 (iota .tc S1x16x1 32 [1] hi (ix3 (0 : Fin 1) c (0 : Fin 1))) = _
    rw [iota_single_apply]

/-- Eight rows of lanes, given a middle axis of length one and repeated over the sixteen classes, read at (b, c, l)
    the entry (b, l). -/
theorem rowsOverClasses_apply {α : Type} (v : S8x16384.Idx → α) (h1 : S8x16384.ShapeCasts S8x1x16384)
    (h2 : S8x1x16384.Broadcasts S8x16x16384) (b : Fin 8) (c : Fin 16) (l : Fin 16384) :
    broadcastTo S8x16x16384 (shapeCast S8x1x16384 v h1) h2 (ix3 b c l) = v (ix2 b l) := by
  refine (broadcastTo_apply _ h2 (ix3 b c l) (ix3 b (0 : Fin 1) l) fun a => ?_).trans ?_
  · match a with
    | ⟨0, _⟩ => rfl
    | ⟨1, _⟩ => rfl
    | ⟨2, _⟩ => rfl
  · refine shapeCast_apply v h1 _ _ ?_
    rw [Shape.rowMajor_val_two, Shape.rowMajor_val_three]
    show b.val * 16384 + l.val = (b.val * 1 + 0) * 16384 + l.val
    omega

/-- A class number below sixteen, written as a word and read signed, is itself. -/
theorem ofNat_fin16_toInt (c : Fin 16) : (BitVec.ofNat 32 c.val).toInt = (c.val : Int) := by
  have hc := c.isLt
  rw [BitVec.toInt_eq_toNat_cond, BitVec.toNat_ofNat, Nat.mod_eq_of_lt (by omega)]
  split <;> omega

/-- The vector unit's arithmetic shift by the literal four is the arithmetic shift by four. -/
theorem shrsi_four (w : BitVec 32) : IntOp.shrsi .vector w 4#32 = w.sshiftRight 4 := by
  unfold IntOp.shrsi
  rw [if_pos (by decide)]
  rfl

/-- The first one-hot factor: 1 where the word's arithmetic shift by four is the class row c. -/
theorem pay8_apply (x1 : Vec Ideal S8x16384 .i32) (b : Fin 8) (c : Fin 16) (l : Fin 16384) :
    k0_pay8 (F := Ideal) x1 (ix3 b c l)
      = if ((x1 (ix2 b l)).sshiftRight 4).toInt = (c.val : Int) then (1 : EReal) else 0 := by
  unfold k0_pay8 k0_pay7 k0_pay6
  show FloatOps.sitofp (F := Ideal) .f32 ((FloatOps.cmpf (F := Ideal) (φ := .bf16) .oeq
      (broadcastTo S8x16x16384 (sitofp (F := Ideal) .bf16 (iota .tc S1x16x1 32 [1] _)) _ (ix3 b c l))
      (broadcastTo S8x16x16384 (shapeCast S8x1x16384 (sitofp (F := Ideal) .bf16
        (shrsi (shapeCast S8x16384 x1 _) (broadcast S8x16384 4#32))) _) _ (ix3 b c l))).setWidth 32) = _
  rw [classCol_apply, rowsOverClasses_apply]
  show FloatOps.sitofp (F := Ideal) .f32 ((FloatOps.cmpf (F := Ideal) (φ := .bf16) .oeq
      (FloatOps.sitofp (F := Ideal) .bf16 (BitVec.ofNat 32 c.val))
      (FloatOps.sitofp (F := Ideal) .bf16 (IntOp.shrsi .vector (shapeCast S8x16384 x1 _ (ix2 b l)) 4#32))).setWidth 32) = _
  rw [onehot_eq, ofNat_fin16_toInt, shrsi_four, shapeCast_self]
  exact if_congr eq_comm rfl rfl

/-- The second one-hot factor: 1 where the word's low four bits are the class column d. -/
theorem pay9_apply (x1 : Vec Ideal S8x16384 .i32) (b : Fin 8) (d : Fin 16) (l : Fin 16384) :
    k0_pay9 (F := Ideal) x1 (ix3 b d l)
      = if ((x1 (ix2 b l)) &&& 15#32).toInt = (d.val : Int) then (1 : EReal) else 0 := by
  unfold k0_pay9 k0_pay7 k0_pay6
  show FloatOps.sitofp (F := Ideal) .f32 ((FloatOps.cmpf (F := Ideal) (φ := .bf16) .oeq
      (broadcastTo S8x16x16384 (sitofp (F := Ideal) .bf16 (iota .tc S1x16x1 32 [1] _)) _ (ix3 b d l))
      (broadcastTo S8x16x16384 (shapeCast S8x1x16384 (sitofp (F := Ideal) .bf16
        (andi (shapeCast S8x16384 x1 _) (broadcast S8x16384 15#32))) _) _ (ix3 b d l))).setWidth 32) = _
  rw [classCol_apply, rowsOverClasses_apply]
  show FloatOps.sitofp (F := Ideal) .f32 ((FloatOps.cmpf (F := Ideal) (φ := .bf16) .oeq
      (FloatOps.sitofp (F := Ideal) .bf16 (BitVec.ofNat 32 d.val))
      (FloatOps.sitofp (F := Ideal) .bf16 ((shapeCast S8x16384 x1 _ (ix2 b l)) &&& 15#32))).setWidth 32) = _
  rw [onehot_eq, ofNat_fin16_toInt, shapeCast_self]
  exact if_congr eq_comm rfl rfl

/-- The two one-hot factors around any extended real x leave x where the word names the class and 0 elsewhere
    (0 · x = 0 for every extended real, the infinities included). -/
theorem hits_mul (w : BitVec 32) (c d : Fin 16) (x : EReal) :
    ((if (w.sshiftRight 4).toInt = (c.val : Int) then (1 : EReal) else 0) * x)
        * (if (w &&& 15#32).toInt = (d.val : Int) then (1 : EReal) else 0)
      = if Hits w c d then x else 0 := by
  by_cases h1 : (w.sshiftRight 4).toInt = (c.val : Int)
  · by_cases h2 : (w &&& 15#32).toInt = (d.val : Int)
    · rw [if_pos h1, if_pos h2, if_pos ((hits_iff w c d).mpr ⟨h1, h2⟩), one_mul, mul_one]
    · rw [if_pos h1, if_neg h2, if_neg (fun h => h2 ((hits_iff w c d).mp h).2), mul_zero]
  · rw [if_neg h1, if_neg (fun h => h1 ((hits_iff w c d).mp h).1), zero_mul, zero_mul]

/-- The product of the two one-hot factors is the indicator of the class. -/
theorem hits_mul_one (w : BitVec 32) (c d : Fin 16) :
    (if (w.sshiftRight 4).toInt = (c.val : Int) then (1 : EReal) else 0)
        * (if (w &&& 15#32).toInt = (d.val : Int) then (1 : EReal) else 0)
      = if Hits w c d then (1 : EReal) else 0 := by
  have h := hits_mul w c d 1
  rwa [mul_one] at h

/-- The sum over the eight rows, read at (c, d). -/
theorem rowsum_apply (src : FVec Ideal S8x16x16 .f32) (h : S8x16x16.Reduces [0] S16x16) (hφ : FKind.Formats .f32)
    (hacc : (0x00000000#32 : BitVec 32) = 0x00000000#32) (c d : Fin 16) :
    multiReduction (F := Ideal) .add [0] S16x16 src 0x00000000#32 h hφ hacc (ix2 c d) = ∑ k : Fin 8, src (ix3 k c d) := by
  refine (Ideal.multiReduction_add_single src 0x00000000#32 h hφ hacc (ix2 c d)).trans ?_
  show ∑ k : Fin 8, src (h.lift (ix2 c d) k) = _
  exact Finset.sum_congr rfl fun k _ => congrArg src (lift_ix h c d k)

/-- The per-row counts: at (b, c, d) the number of lanes of row b whose word names the class (c, d). -/
theorem pay10_apply (x1 : Vec Ideal S8x16384 .i32) (b : Fin 8) (c d : Fin 16) :
    k0_pay10 (F := Ideal) x1 (ix3 b c d) = ∑ l : Fin 16384, if Hits (x1 (ix2 b l)) c d then (1 : EReal) else 0 := by
  unfold k0_pay10
  refine (bmm_apply _ _ b c d).trans ?_
  refine Finset.sum_congr rfl fun l _ => ?_
  rw [pay8_apply, pay9_apply]
  exact hits_mul_one _ c d

/-- The sum accumulator after one block: what it held plus the block's share of class (c, d)'s sum. -/
theorem pay11_apply (x0 : Vec Ideal S8x16384 .f32) (x1 : Vec Ideal S8x16384 .i32) (xs : Vec Ideal S16x16 .f32) (c d : Fin 16) :
    k0_pay11 (F := Ideal) x0 x1 xs (ix2 c d) = xs (ix2 c d) + blockSum x0 x1 c d := by
  unfold k0_pay11
  refine (congrFun (shapeCast_self _ _) (ix2 c d)).trans ?_
  refine (addf_apply _ _ _).trans ?_
  refine congrArg (xs (ix2 c d) + ·) ?_
  refine (rowsum_apply _ _ _ _ c d).trans ?_
  unfold blockSum
  refine Finset.sum_congr rfl fun b _ => ?_
  refine (bmm_apply _ _ b c d).trans ?_
  refine Finset.sum_congr rfl fun l _ => ?_
  rw [mulf_apply, pay8_apply, pay9_apply, rowsOverClasses_apply, truncf_apply, shapeCast_self]
  exact hits_mul _ c d _

/-- The count accumulator after one block: what it held plus the block's share of class (c, d)'s count. -/
theorem pay1_apply (x1 : Vec Ideal S8x16384 .i32) (xs : Vec Ideal S16x16 .f32) (c d : Fin 16) :
    k0_pay1 (F := Ideal) (k0_pay10 (F := Ideal) x1) xs (ix2 c d) = xs (ix2 c d) + blockCnt x1 c d := by
  unfold k0_pay1
  refine (congrFun (shapeCast_self _ _) (ix2 c d)).trans ?_
  refine (addf_apply _ _ _).trans ?_
  refine congrArg (xs (ix2 c d) + ·) ?_
  refine (rowsum_apply _ _ _ _ c d).trans ?_
  unfold blockCnt
  exact Finset.sum_congr rfl fun b _ => pay10_apply x1 b c d

/-- The two reset values are zero. -/
theorem pay4_apply (c d : Fin 16) : k0_pay4 (F := Ideal) (ix2 c d) = 0 := by
  unfold k0_pay4
  rw [shapeCast_self]
  exact Ideal.ofBits_zero_f32
theorem pay5_apply (c d : Fin 16) : k0_pay5 (F := Ideal) (ix2 c d) = 0 := by
  unfold k0_pay5
  rw [shapeCast_self]
  exact Ideal.ofBits_zero_f32

/-- The two write-outs lay the 16 × 16 accumulator out as one 1 × 16 × 16 block. -/
theorem pay2_apply (v : Vec Ideal S16x16 .f32) (z : Fin 1) (c d : Fin 16) : k0_pay2 (F := Ideal) v (ix3 z c d) = v (ix2 c d) := by
  unfold k0_pay2
  exact shapeCast_ab_1ab_apply v _ z c d
theorem pay3_apply (v : Vec Ideal S16x16 .f32) (z : Fin 1) (c d : Fin 16) : k0_pay3 (F := Ideal) v (ix3 z c d) = v (ix2 c d) := by
  unfold k0_pay3
  exact shapeCast_ab_1ab_apply v _ z c d

end Cert.KernelIdeal.PayIdx

end
-- ==== Proof.Pieces.lean ====
/-
  What each control case of the kernel body leaves in the two carried accumulators and in the two output blocks, as
  the body's arithmetic applied to the blocks it loaded.

  Case A (the first step of a half): both accumulators are reset to zero and then updated. Case B (a middle step):
  the accumulators are updated over what the step before left. Case C (the last step of a half): as case B, and the
  updated accumulators are then copied to the output blocks.
-/
import proofs.«427968_j43104291782997_3_alg».proof.Proof.Gen.KernelIdeal.Frame
import Idealize.ShloMosaic.Lib.Pipeline.Value
import Idealize.ShloMosaic.Lib.Tactic

noncomputable section

open scoped BigOperators

namespace Cert.KernelIdeal.Pieces

open Idealize.ShloMosaic Idealize.ShloMosaic.TcCoe Idealize.SL.Sem Cert.KernelIdeal Cert.KernelIdeal.Gen

variable {F : FTy → Type} [FloatOps F]

/-- The zero offsets of a rank-2 block, as the constant function. -/
private theorem zeros2 : (![0, 0] : Fin 2 → Nat) = fun _ => 0 := funext fun a => by fin_cases a <;> rfl

/-- The zero offsets of a rank-3 block, as the constant function. -/
private theorem zeros3 : (![0, 0, 0] : Fin 3 → Nat) = fun _ => 0 := funext fun a => by fin_cases a <;> rfl

theorem sout_A_0 (c : Dev nD) (i : grid0.Coords) (arg2 : Memref sig .tc .vmem S8x16384 .f32) (harg2 : arg2.IsWhole) (arg3 : Memref sig .tc .vmem S8x16384 .i32) (harg3 : arg3.IsWhole) (arg4 : Memref sig .tc .vmem S1x16x16 .f32) (harg4 : arg4.IsWhole) (arg5 : Memref sig .tc .vmem S1x16x16 .f32) (harg5 : arg5.IsWhole) (arg6 : Memref sig .tc .vmem S16x16 .f32) (harg6 : arg6.IsWhole) (arg7 : Memref sig .tc .vmem S16x16 .f32) (harg7 : arg7.IsWhole) (hc0 : cond0_0 i) (hc1 : ¬cond0_1 i)
    (x0 : Vec F S8x16384 .f32) (x1 : Vec F S8x16384 .i32) :
    sout0_A_0 c i arg2 harg2 arg3 harg3 arg4 harg4 arg5 harg5 arg6 harg6 arg7 harg7 hc0 hc1 x0 x1 = k0_pay11 x0 x1 (k0_pay4 (F := F)) := by
  -- the reset stores the zero block, the update reads it back and stores last: the last store covers the buffer
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S16x16) zeros2, View.readCov_unit_zero (S := S16x16) _ zeros2]
  simp only [View.readAt_eq_ld, harg2.read_unread, harg3.read_unread, View.ld_unit_zero (S := S8x16384) zeros2]

theorem sout_A_1 (c : Dev nD) (i : grid0.Coords) (arg2 : Memref sig .tc .vmem S8x16384 .f32) (harg2 : arg2.IsWhole) (arg3 : Memref sig .tc .vmem S8x16384 .i32) (harg3 : arg3.IsWhole) (arg4 : Memref sig .tc .vmem S1x16x16 .f32) (harg4 : arg4.IsWhole) (arg5 : Memref sig .tc .vmem S1x16x16 .f32) (harg5 : arg5.IsWhole) (arg6 : Memref sig .tc .vmem S16x16 .f32) (harg6 : arg6.IsWhole) (arg7 : Memref sig .tc .vmem S16x16 .f32) (harg7 : arg7.IsWhole) (hc0 : cond0_0 i) (hc1 : ¬cond0_1 i)
    (x0 : Vec F S8x16384 .f32) (x1 : Vec F S8x16384 .i32) :
    sout0_A_1 c i arg2 harg2 arg3 harg3 arg4 harg4 arg5 harg5 arg6 harg6 arg7 harg7 hc0 hc1 x0 x1 = k0_pay1 (k0_pay10 x1) (k0_pay5 (F := F)) := by
  -- as for the first accumulator: zero stored, read back, and the update stored over it
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S16x16) zeros2, View.readCov_unit_zero (S := S16x16) _ zeros2]
  simp only [View.readAt_eq_ld, harg3.read_unread, View.ld_unit_zero (S := S8x16384) zeros2]

theorem sout_B_0 (c : Dev nD) (i : grid0.Coords) (arg2 : Memref sig .tc .vmem S8x16384 .f32) (harg2 : arg2.IsWhole) (arg3 : Memref sig .tc .vmem S8x16384 .i32) (harg3 : arg3.IsWhole) (arg4 : Memref sig .tc .vmem S1x16x16 .f32) (harg4 : arg4.IsWhole) (arg5 : Memref sig .tc .vmem S1x16x16 .f32) (harg5 : arg5.IsWhole) (arg6 : Memref sig .tc .vmem S16x16 .f32) (harg6 : arg6.IsWhole) (arg7 : Memref sig .tc .vmem S16x16 .f32) (harg7 : arg7.IsWhole) (hc0 : ¬cond0_0 i) (hc1 : ¬cond0_1 i)
    (x0 : Vec F S8x16384 .f32) (x1 : Vec F S8x16384 .i32) (xs0 : Vec F S16x16 .f32) (xs1 : Vec F S16x16 .f32) :
    sout0_B_0 c i arg2 harg2 arg3 harg3 arg4 harg4 arg5 harg5 arg6 harg6 arg7 harg7 hc0 hc1 x0 x1 xs0 xs1 = k0_pay11 x0 x1 xs0 := by
  -- one store covering the buffer; its payload's loads read the whole input blocks and the carried contents
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero zeros2]
  simp only [View.readAt_eq_ld, harg2.read_unread, harg3.read_unread, harg6.read_unread,
    View.ld_unit_zero (S := S8x16384) zeros2, View.ld_unit_zero (S := S16x16) zeros2]

theorem sout_B_1 (c : Dev nD) (i : grid0.Coords) (arg2 : Memref sig .tc .vmem S8x16384 .f32) (harg2 : arg2.IsWhole) (arg3 : Memref sig .tc .vmem S8x16384 .i32) (harg3 : arg3.IsWhole) (arg4 : Memref sig .tc .vmem S1x16x16 .f32) (harg4 : arg4.IsWhole) (arg5 : Memref sig .tc .vmem S1x16x16 .f32) (harg5 : arg5.IsWhole) (arg6 : Memref sig .tc .vmem S16x16 .f32) (harg6 : arg6.IsWhole) (arg7 : Memref sig .tc .vmem S16x16 .f32) (harg7 : arg7.IsWhole) (hc0 : ¬cond0_0 i) (hc1 : ¬cond0_1 i)
    (x0 : Vec F S8x16384 .f32) (x1 : Vec F S8x16384 .i32) (xs0 : Vec F S16x16 .f32) (xs1 : Vec F S16x16 .f32) :
    sout0_B_1 c i arg2 harg2 arg3 harg3 arg4 harg4 arg5 harg5 arg6 harg6 arg7 harg7 hc0 hc1 x0 x1 xs0 xs1 = k0_pay1 (k0_pay10 x1) xs1 := by
  -- one covering store of the count update over the carried contents
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero zeros2]
  simp only [View.readAt_eq_ld, harg3.read_unread, harg7.read_unread,
    View.ld_unit_zero (S := S8x16384) zeros2, View.ld_unit_zero (S := S16x16) zeros2]

theorem sout_C_0 (c : Dev nD) (i : grid0.Coords) (arg2 : Memref sig .tc .vmem S8x16384 .f32) (harg2 : arg2.IsWhole) (arg3 : Memref sig .tc .vmem S8x16384 .i32) (harg3 : arg3.IsWhole) (arg4 : Memref sig .tc .vmem S1x16x16 .f32) (harg4 : arg4.IsWhole) (arg5 : Memref sig .tc .vmem S1x16x16 .f32) (harg5 : arg5.IsWhole) (arg6 : Memref sig .tc .vmem S16x16 .f32) (harg6 : arg6.IsWhole) (arg7 : Memref sig .tc .vmem S16x16 .f32) (harg7 : arg7.IsWhole) (hc0 : ¬cond0_0 i) (hc1 : cond0_1 i)
    (x0 : Vec F S8x16384 .f32) (x1 : Vec F S8x16384 .i32) (xs0 : Vec F S16x16 .f32) (xs1 : Vec F S16x16 .f32) :
    sout0_C_0 c i arg2 harg2 arg3 harg3 arg4 harg4 arg5 harg5 arg6 harg6 arg7 harg7 hc0 hc1 x0 x1 xs0 xs1 = k0_pay11 x0 x1 xs0 := by
  -- the accumulator is updated exactly as at a middle step; the copy out afterwards only reads it
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero zeros2]
  simp only [View.readAt_eq_ld, harg2.read_unread, harg3.read_unread, harg6.read_unread,
    View.ld_unit_zero (S := S8x16384) zeros2, View.ld_unit_zero (S := S16x16) zeros2]

theorem sout_C_1 (c : Dev nD) (i : grid0.Coords) (arg2 : Memref sig .tc .vmem S8x16384 .f32) (harg2 : arg2.IsWhole) (arg3 : Memref sig .tc .vmem S8x16384 .i32) (harg3 : arg3.IsWhole) (arg4 : Memref sig .tc .vmem S1x16x16 .f32) (harg4 : arg4.IsWhole) (arg5 : Memref sig .tc .vmem S1x16x16 .f32) (harg5 : arg5.IsWhole) (arg6 : Memref sig .tc .vmem S16x16 .f32) (harg6 : arg6.IsWhole) (arg7 : Memref sig .tc .vmem S16x16 .f32) (harg7 : arg7.IsWhole) (hc0 : ¬cond0_0 i) (hc1 : cond0_1 i)
    (x0 : Vec F S8x16384 .f32) (x1 : Vec F S8x16384 .i32) (xs0 : Vec F S16x16 .f32) (xs1 : Vec F S16x16 .f32) :
    sout0_C_1 c i arg2 harg2 arg3 harg3 arg4 harg4 arg5 harg5 arg6 harg6 arg7 harg7 hc0 hc1 x0 x1 xs0 xs1 = k0_pay1 (k0_pay10 x1) xs1 := by
  -- likewise for the second accumulator
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero zeros2]
  simp only [View.readAt_eq_ld, harg3.read_unread, harg7.read_unread,
    View.ld_unit_zero (S := S8x16384) zeros2, View.ld_unit_zero (S := S16x16) zeros2]

theorem out_C_2 (c : Dev nD) (i : grid0.Coords) (arg2 : Memref sig .tc .vmem S8x16384 .f32) (harg2 : arg2.IsWhole) (arg3 : Memref sig .tc .vmem S8x16384 .i32) (harg3 : arg3.IsWhole) (arg4 : Memref sig .tc .vmem S1x16x16 .f32) (harg4 : arg4.IsWhole) (arg5 : Memref sig .tc .vmem S1x16x16 .f32) (harg5 : arg5.IsWhole) (arg6 : Memref sig .tc .vmem S16x16 .f32) (harg6 : arg6.IsWhole) (arg7 : Memref sig .tc .vmem S16x16 .f32) (harg7 : arg7.IsWhole) (hc0 : ¬cond0_0 i) (hc1 : cond0_1 i)
    (x0 : Vec F S8x16384 .f32) (x1 : Vec F S8x16384 .i32) (xs0 : Vec F S16x16 .f32) (xs1 : Vec F S16x16 .f32) :
    out0_C_2 c i arg2 harg2 arg3 harg3 arg4 harg4 arg5 harg5 arg6 harg6 arg7 harg7 hc0 hc1 x0 x1 xs0 xs1 = k0_pay2 (k0_pay11 x0 x1 xs0) := by
  -- one covering store into the output block, of the first accumulator as read back after its update
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero zeros3]
  simp only [View.readCov_unit_zero (S := S16x16) _ zeros2, View.readAt_eq_ld, harg2.read_unread, harg3.read_unread,
    harg6.read_unread, View.ld_unit_zero (S := S8x16384) zeros2, View.ld_unit_zero (S := S16x16) zeros2]

theorem out_C_3 (c : Dev nD) (i : grid0.Coords) (arg2 : Memref sig .tc .vmem S8x16384 .f32) (harg2 : arg2.IsWhole) (arg3 : Memref sig .tc .vmem S8x16384 .i32) (harg3 : arg3.IsWhole) (arg4 : Memref sig .tc .vmem S1x16x16 .f32) (harg4 : arg4.IsWhole) (arg5 : Memref sig .tc .vmem S1x16x16 .f32) (harg5 : arg5.IsWhole) (arg6 : Memref sig .tc .vmem S16x16 .f32) (harg6 : arg6.IsWhole) (arg7 : Memref sig .tc .vmem S16x16 .f32) (harg7 : arg7.IsWhole) (hc0 : ¬cond0_0 i) (hc1 : cond0_1 i)
    (x0 : Vec F S8x16384 .f32) (x1 : Vec F S8x16384 .i32) (xs0 : Vec F S16x16 .f32) (xs1 : Vec F S16x16 .f32) :
    out0_C_3 c i arg2 harg2 arg3 harg3 arg4 harg4 arg5 harg5 arg6 harg6 arg7 harg7 hc0 hc1 x0 x1 xs0 xs1 = k0_pay3 (k0_pay1 (k0_pay10 x1) xs1) := by
  -- one covering store into the output block, of the second accumulator as read back after its update
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero zeros3]
  simp only [View.readCov_unit_zero (S := S16x16) _ zeros2, View.readAt_eq_ld, harg3.read_unread,
    harg7.read_unread, View.ld_unit_zero (S := S8x16384) zeros2, View.ld_unit_zero (S := S16x16) zeros2]

end Cert.KernelIdeal.Pieces

end
-- ==== Proof.Accum.lean ====
/-
  The two accumulators across the grid, and what the kernel's two result arrays end holding.

  The grid has two halves of 128 steps. Within a half the kernel adds each step's block shares into its two 16 × 16
  accumulators, starting afresh at the half's first step; at the half's last step it copies them to block p of the
  two 2 × 16 × 16 result arrays. So entry (p, c, d) of the first result array is the sum over the 128 steps of half p
  of the steps' shares of class (c, d)'s sum, and of the second the same for the counts.
-/
import proofs.«427968_j43104291782997_3_alg».proof.Proof.Gen.KernelIdeal.Frame
import proofs.«427968_j43104291782997_3_alg».proof.Proof.SegDefs
import proofs.«427968_j43104291782997_3_alg».proof.Proof.KBlocks
import proofs.«427968_j43104291782997_3_alg».proof.Proof.PayIdx
import proofs.«427968_j43104291782997_3_alg».proof.Proof.Pieces
import Idealize.ShloMosaic.Lib.Pipeline.Value

noncomputable section

open scoped BigOperators

namespace Cert.KernelIdeal.Accum

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.Seg

variable (m : (ℓ : Loc nD τ sig) → Buf (Elt Ideal) ℓ)

/-- Step `n`'s share of class (cc, d)'s sum, and of its count. -/
def stepS (c : Dev nD) (cc d : Fin 16) (n : ℕ) : EReal := blockSum (xblk m c n) (wblk m c n) cc d
def stepC (c : Dev nD) (cc d : Fin 16) (n : ℕ) : EReal := blockCnt (wblk m c n) cc d

/-- The running sum's defining equations: its value at step 0, at a step that starts a period, and at any other step. -/
private theorem runAcc_zero {α : Type} [AddCommMonoid α] (P : ℕ) (f : ℕ → α) : runAcc P f 0 = f 0 := rfl
private theorem runAcc_reset {α : Type} [AddCommMonoid α] (P : ℕ) (f : ℕ → α) (n : ℕ) (h : (n + 1) % P = 0) :
    runAcc P f (n + 1) = f (n + 1) := by
  rw [runAcc, if_pos h]
private theorem runAcc_step {α : Type} [AddCommMonoid α] (P : ℕ) (f : ℕ → α) (n : ℕ) (h : ¬(n + 1) % P = 0) :
    runAcc P f (n + 1) = runAcc P f n + f (n + 1) := by
  rw [runAcc, if_neg h]

/-- A step's shares, over the blocks the step reads. -/
private theorem stepS_eq (c : Dev nD) (cc d : Fin 16) (t : Fin cfg0.N) :
    stepS m c cc d t.val = blockSum (iblk m c 0 t : Vec Ideal S8x16384 .f32) (iblk m c 1 t : Vec Ideal S8x16384 .i32) cc d := by
  unfold stepS
  rw [xblk_of_lt m c t.val t.isLt, wblk_of_lt m c t.val t.isLt]
private theorem stepC_eq (c : Dev nD) (cc d : Fin 16) (t : Fin cfg0.N) :
    stepC m c cc d t.val = blockCnt (iblk m c 1 t : Vec Ideal S8x16384 .i32) cc d := by
  unfold stepC
  rw [wblk_of_lt m c t.val t.isLt]

/-- At the first step of a half the accumulators are reset to zero before the step's shares are added: they end holding
    the step's shares alone. -/
theorem acc_first (c : Dev nD) (t : Fin cfg0.N) (h0 : t.val % 128 = 0) (h1 : ¬t.val % 128 = 127) (cc d : Fin 16) :
    ((outsAt0 m c t.val t.isLt).2.2.1 : Vec Ideal S16x16 .f32) (ix2 cc d) = stepS m c cc d t.val
    ∧ ((outsAt0 m c t.val t.isLt).2.2.2 : Vec Ideal S16x16 .f32) (ix2 cc d) = stepC m c cc d t.val := by
  rw [outsAt0_A m c t h0 h1]
  dsimp only
  constructor
  · refine (congrFun (Pieces.sout_A_0 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) ((hcond0_0 t).mpr h0) (fun h => h1 ((hcond0_1 t).mp h)) (iblk m c 0 t) (iblk m c 1 t)) (ix2 cc d)).trans ?_
    refine (PayIdx.pay11_apply (iblk m c 0 t) (iblk m c 1 t) (k0_pay4 (F := Ideal)) cc d).trans ?_
    rw [PayIdx.pay4_apply, zero_add, stepS_eq]
  · refine (congrFun (Pieces.sout_A_1 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) ((hcond0_0 t).mpr h0) (fun h => h1 ((hcond0_1 t).mp h)) (iblk m c 0 t) (iblk m c 1 t)) (ix2 cc d)).trans ?_
    refine (PayIdx.pay1_apply (iblk m c 1 t) (k0_pay5 (F := Ideal)) cc d).trans ?_
    rw [PayIdx.pay5_apply, zero_add, stepC_eq]

/-- At a middle step of a half each accumulator gains the step's share over what the step before left. -/
theorem acc_middle (c : Dev nD) (t : Fin cfg0.N) (h0 : ¬t.val % 128 = 0) (h1 : ¬t.val % 128 = 127) (cc d : Fin 16) :
    ((outsAt0 m c t.val t.isLt).2.2.1 : Vec Ideal S16x16 .f32) (ix2 cc d)
        = ((outsAt0 m c (t.val - 1) (Nat.lt_of_le_of_lt (Nat.sub_le _ _) t.isLt)).2.2.1 : Vec Ideal S16x16 .f32) (ix2 cc d) + stepS m c cc d t.val
    ∧ ((outsAt0 m c t.val t.isLt).2.2.2 : Vec Ideal S16x16 .f32) (ix2 cc d)
        = ((outsAt0 m c (t.val - 1) (Nat.lt_of_le_of_lt (Nat.sub_le _ _) t.isLt)).2.2.2 : Vec Ideal S16x16 .f32) (ix2 cc d) + stepC m c cc d t.val := by
  rw [outsAt0_B m c t h0 h1]
  dsimp only
  constructor
  · refine (congrFun (Pieces.sout_B_0 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 cc d)).trans ?_
    refine (PayIdx.pay11_apply (iblk m c 0 t) (iblk m c 1 t) (outsAt0 m c (t.val - 1) (Nat.lt_of_le_of_lt (Nat.sub_le _ _) t.isLt)).2.2.1 cc d).trans ?_
    rw [stepS_eq]
  · refine (congrFun (Pieces.sout_B_1 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 cc d)).trans ?_
    refine (PayIdx.pay1_apply (iblk m c 1 t) (outsAt0 m c (t.val - 1) (Nat.lt_of_le_of_lt (Nat.sub_le _ _) t.isLt)).2.2.2 cc d).trans ?_
    rw [stepC_eq]

/-- At the last step of a half the accumulators gain the step's shares in the same way. -/
theorem acc_last (c : Dev nD) (t : Fin cfg0.N) (h0 : ¬t.val % 128 = 0) (h1 : t.val % 128 = 127) (cc d : Fin 16) :
    ((outsAt0 m c t.val t.isLt).2.2.1 : Vec Ideal S16x16 .f32) (ix2 cc d)
        = ((outsAt0 m c (t.val - 1) (Nat.lt_of_le_of_lt (Nat.sub_le _ _) t.isLt)).2.2.1 : Vec Ideal S16x16 .f32) (ix2 cc d) + stepS m c cc d t.val
    ∧ ((outsAt0 m c t.val t.isLt).2.2.2 : Vec Ideal S16x16 .f32) (ix2 cc d)
        = ((outsAt0 m c (t.val - 1) (Nat.lt_of_le_of_lt (Nat.sub_le _ _) t.isLt)).2.2.2 : Vec Ideal S16x16 .f32) (ix2 cc d) + stepC m c cc d t.val := by
  rw [outsAt0_C m c t h0 h1]
  dsimp only
  constructor
  · refine (congrFun (Pieces.sout_C_0 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 cc d)).trans ?_
    refine (PayIdx.pay11_apply (iblk m c 0 t) (iblk m c 1 t) (outsAt0 m c (t.val - 1) (Nat.lt_of_le_of_lt (Nat.sub_le _ _) t.isLt)).2.2.1 cc d).trans ?_
    rw [stepS_eq]
  · refine (congrFun (Pieces.sout_C_1 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 cc d)).trans ?_
    refine (PayIdx.pay1_apply (iblk m c 1 t) (outsAt0 m c (t.val - 1) (Nat.lt_of_le_of_lt (Nat.sub_le _ _) t.isLt)).2.2.2 cc d).trans ?_
    rw [stepC_eq]

/-- And there the two output blocks receive copies of the updated accumulators. -/
theorem out_last (c : Dev nD) (t : Fin cfg0.N) (h0 : ¬t.val % 128 = 0) (h1 : t.val % 128 = 127) (z : Fin 1) (cc d : Fin 16) :
    ((outsAt0 m c t.val t.isLt).1 : Vec Ideal S1x16x16 .f32) (ix3 z cc d)
        = ((outsAt0 m c t.val t.isLt).2.2.1 : Vec Ideal S16x16 .f32) (ix2 cc d)
    ∧ ((outsAt0 m c t.val t.isLt).2.1 : Vec Ideal S1x16x16 .f32) (ix3 z cc d)
        = ((outsAt0 m c t.val t.isLt).2.2.2 : Vec Ideal S16x16 .f32) (ix2 cc d) := by
  rw [outsAt0_C m c t h0 h1]
  dsimp only
  constructor
  · refine (congrFun (Pieces.out_C_2 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 z cc d)).trans ?_
    refine (PayIdx.pay2_apply (k0_pay11 (F := Ideal) (iblk m c 0 t) (iblk m c 1 t) (outsAt0 m c (t.val - 1) (Nat.lt_of_le_of_lt (Nat.sub_le _ _) t.isLt)).2.2.1) z cc d).trans ?_
    exact (congrFun (Pieces.sout_C_0 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 cc d)).symm
  · refine (congrFun (Pieces.out_C_3 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 z cc d)).trans ?_
    refine (PayIdx.pay3_apply (k0_pay1 (F := Ideal) (k0_pay10 (F := Ideal) (iblk m c 1 t)) (outsAt0 m c (t.val - 1) (Nat.lt_of_le_of_lt (Nat.sub_le _ _) t.isLt)).2.2.2) z cc d).trans ?_
    exact (congrFun (Pieces.sout_C_1 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 cc d)).symm

/-- After step `n` the two accumulators hold the running sums of the shares since the half's first step. -/
theorem acc_eq (c : Dev nD) (n : ℕ) (hn : n < cfg0.N) (cc d : Fin 16) :
    ((outsAt0 m c n hn).2.2.1 : Vec Ideal S16x16 .f32) (ix2 cc d) = runAcc 128 (stepS m c cc d) n
    ∧ ((outsAt0 m c n hn).2.2.2 : Vec Ideal S16x16 .f32) (ix2 cc d) = runAcc 128 (stepC m c cc d) n := by
  induction n with
  | zero =>
    have h := acc_first m c ⟨0, hn⟩ (Nat.zero_mod 128) (by show ¬0 % 128 = 127; omega) cc d
    exact ⟨h.1.trans (runAcc_zero 128 _).symm, h.2.trans (runAcc_zero 128 _).symm⟩
  | succ n ih =>
    have ih' := ih (Nat.lt_of_succ_lt hn)
    by_cases h0 : (n + 1) % 128 = 0
    · have h := acc_first m c ⟨n + 1, hn⟩ h0 (by show ¬(n + 1) % 128 = 127; omega) cc d
      exact ⟨h.1.trans (runAcc_reset 128 _ n h0).symm, h.2.trans (runAcc_reset 128 _ n h0).symm⟩
    · by_cases h1 : (n + 1) % 128 = 127
      · have h := acc_last m c ⟨n + 1, hn⟩ h0 h1 cc d
        exact ⟨(h.1.trans (congrArg (· + stepS m c cc d (n + 1)) ih'.1)).trans (runAcc_step 128 _ n h0).symm,
          (h.2.trans (congrArg (· + stepC m c cc d (n + 1)) ih'.2)).trans (runAcc_step 128 _ n h0).symm⟩
      · have h := acc_middle m c ⟨n + 1, hn⟩ h0 h1 cc d
        exact ⟨(h.1.trans (congrArg (· + stepS m c cc d (n + 1)) ih'.1)).trans (runAcc_step 128 _ n h0).symm,
          (h.2.trans (congrArg (· + stepC m c cc d (n + 1)) ih'.2)).trans (runAcc_step 128 _ n h0).symm⟩

/-- The first result array as one function of its index: entry (p, cc, d) is the running sum of the sums' shares after the last
    step of half p. -/
def sumArr (c : Dev nD) : Vec Ideal S2x16x16 .f32 :=
  fun j => runAcc 128 (stepS m c (j 1) (j 2)) (128 * (j 0).val + 127)

private theorem sumArr_eq (c : Dev nD) (i : S2x16x16.Idx) (cc d : Fin 16) (n : ℕ)
    (h1 : (i 1).val = cc.val) (h2 : (i 2).val = d.val) (h0 : 128 * (i 0).val + 127 = n) :
    sumArr m c i = runAcc 128 (stepS m c cc d) n := by
  show runAcc 128 (stepS m c (i 1) (i 2)) (128 * (i 0).val + 127) = runAcc 128 (stepS m c cc d) n
  rw [show (i 1 : Fin 16) = cc from Fin.ext h1, show (i 2 : Fin 16) = d from Fin.ext h2, h0]

/-- Where window 2's block sits at each step: block p = step / 128 of the first result array, whole on the other two axes. -/
theorem idx2 : ∀ t : Fin cfg0.N, win0_2.index t (0 : Fin 3) = t.val / 128 ∧ win0_2.index t (1 : Fin 3) = 0 ∧ win0_2.index t (2 : Fin 3) = 0 :=
  (by decide +kernel : ∀ t : Fin grid0.N, win0_2.index t (0 : Fin 3) = t.val / 128 ∧ win0_2.index t (1 : Fin 3) = 0 ∧ win0_2.index t (2 : Fin 3) = 0)

/-- What a half's last step writes back is that half's block of the array function: the output block holds a copy of the
    accumulator, which holds the running sum at that step, and the step is 128 p + 127 for the block index p. -/
theorem flushed2 (c : Dev nD) (t : Fin cfg0.N) (hf : (cfg0.win 2).flush t = true) :
    (dats m 0 c).flushed 2 t = ((cfg0.win 2).blk t).view.read (Elt Ideal) (sumArr m c) := by
  have h127 : t.val % 128 = 127 := (flush0_2 t).mp hf
  have h0 : ¬t.val % 128 = 0 := by omega
  obtain ⟨e0, e1, e2⟩ := idx2 t
  show (cfg0.win 2).cut (grid0.coords t) ((dats m 0 c).after 2 t) = _
  rw [after0_2]
  funext j
  have hj0 : (j 0).val < 1 := (j 0).isLt
  have hj1 : (j 1).val < 16 := (j 1).isLt
  have hj2 : (j 2).val < 16 := (j 2).isLt
  show ((outsAt0 m c t.val t.isLt).1 : Vec Ideal S1x16x16 .f32) ((cfg0.win 2).xinj (grid0.coords t) j)
    = sumArr m c (((cfg0.win 2).blk t).view.emb j)
  rw [show (cfg0.win 2).xinj (grid0.coords t) j = ix3 (⟨(j 0).val, hj0⟩ : Fin 1) (⟨(j 1).val, hj1⟩ : Fin 16) (⟨(j 2).val, hj2⟩ : Fin 16) from
    funext fun a => by match a with | ⟨0, _⟩ => rfl | ⟨1, _⟩ => rfl | ⟨2, _⟩ => rfl]
  rw [(out_last m c t h0 h127 ⟨(j 0).val, hj0⟩ ⟨(j 1).val, hj1⟩ ⟨(j 2).val, hj2⟩).1,
    (acc_eq m c t.val t.isLt ⟨(j 1).val, hj1⟩ ⟨(j 2).val, hj2⟩).1]
  refine (sumArr_eq m c _ ⟨(j 1).val, hj1⟩ ⟨(j 2).val, hj2⟩ t.val ?_ ?_ ?_).symm
  · show win0_2.index t (1 : Fin 3) * 16 + 1 * (j 1).val = (j 1).val
    rw [e1]; omega
  · show win0_2.index t (2 : Fin 3) * 16 + 1 * (j 2).val = (j 2).val
    rw [e2]; omega
  · show 128 * (win0_2.index t (0 : Fin 3) * 1 + 1 * (j 0).val) + 127 = t.val
    rw [e0]; omega

/-- Every entry (p, cc, d) of the array lies in the block the last step of half p writes back. -/
theorem cover2 (c : Dev nD) (i : S2x16x16.Idx) :
    ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 16 := (i 2).isLt
  have hN : cfg0.N = 256 := N_0
  have ht : 128 * (i 0).val + 127 < cfg0.N := by rw [hN]; omega
  obtain ⟨e0, e1, e2⟩ := idx2 ⟨128 * (i 0).val + 127, ht⟩
  have e0' : win0_2.index ⟨128 * (i 0).val + 127, ht⟩ (0 : Fin 3) = (i 0).val :=
    e0.trans (by show (128 * (i 0).val + 127) / 128 = (i 0).val; omega)
  refine ⟨⟨128 * (i 0).val + 127, ht⟩, (flush0_2 _).mpr (by show (128 * (i 0).val + 127) % 128 = 127; omega), ?_⟩
  show i ∈ ((View.whole main_v2_0).slice (win0_2.rect ⟨128 * (i 0).val + 127, ht⟩)).set
  rw [View.set_slice_whole, Rect.mem_set_unit]
  intro a
  match a with
  | ⟨0, _⟩ =>
    show win0_2.index ⟨128 * (i 0).val + 127, ht⟩ (0 : Fin 3) * 1 ≤ (i 0).val
      ∧ (i 0).val < win0_2.index ⟨128 * (i 0).val + 127, ht⟩ (0 : Fin 3) * 1 + 1
    rw [e0']; omega
  | ⟨1, _⟩ =>
    show win0_2.index ⟨128 * (i 0).val + 127, ht⟩ (1 : Fin 3) * 16 ≤ (i 1).val
      ∧ (i 1).val < win0_2.index ⟨128 * (i 0).val + 127, ht⟩ (1 : Fin 3) * 16 + 16
    rw [e1]; omega
  | ⟨2, _⟩ =>
    show win0_2.index ⟨128 * (i 0).val + 127, ht⟩ (2 : Fin 3) * 16 ≤ (i 2).val
      ∧ (i 2).val < win0_2.index ⟨128 * (i 0).val + 127, ht⟩ (2 : Fin 3) * 16 + 16
    rw [e2]; omega

/-- The first result array ends, at (p, cc, d), at the running sum after the last step of half p. -/
theorem final2 (c : Dev nD) (p : Fin 2) (cc d : Fin 16) :
    ((dats m 0 c).arrAt 2 cfg0.N : Vec Ideal S2x16x16 .f32) (ix3 p cc d) = runAcc 128 (stepS m c cc d) (128 * p.val + 127) :=
  (congrFun ((dats m 0 c).arrAt_eq_of_cover 2 (sumArr m c) (flushed2 m c) (cover2 c)) (ix3 p cc d)).trans rfl

/-- The second result array as one function of its index: entry (p, cc, d) is the running sum of the counts' shares after the last
    step of half p. -/
def cntArr (c : Dev nD) : Vec Ideal S2x16x16 .f32 :=
  fun j => runAcc 128 (stepC m c (j 1) (j 2)) (128 * (j 0).val + 127)

private theorem cntArr_eq (c : Dev nD) (i : S2x16x16.Idx) (cc d : Fin 16) (n : ℕ)
    (h1 : (i 1).val = cc.val) (h2 : (i 2).val = d.val) (h0 : 128 * (i 0).val + 127 = n) :
    cntArr m c i = runAcc 128 (stepC m c cc d) n := by
  show runAcc 128 (stepC m c (i 1) (i 2)) (128 * (i 0).val + 127) = runAcc 128 (stepC m c cc d) n
  rw [show (i 1 : Fin 16) = cc from Fin.ext h1, show (i 2 : Fin 16) = d from Fin.ext h2, h0]

/-- Where window 3's block sits at each step: block p = step / 128 of the second result array, whole on the other two axes. -/
theorem idx3 : ∀ t : Fin cfg0.N, win0_3.index t (0 : Fin 3) = t.val / 128 ∧ win0_3.index t (1 : Fin 3) = 0 ∧ win0_3.index t (2 : Fin 3) = 0 :=
  (by decide +kernel : ∀ t : Fin grid0.N, win0_3.index t (0 : Fin 3) = t.val / 128 ∧ win0_3.index t (1 : Fin 3) = 0 ∧ win0_3.index t (2 : Fin 3) = 0)

/-- What a half's last step writes back is that half's block of the array function: the output block holds a copy of the
    accumulator, which holds the running sum at that step, and the step is 128 p + 127 for the block index p. -/
theorem flushed3 (c : Dev nD) (t : Fin cfg0.N) (hf : (cfg0.win 3).flush t = true) :
    (dats m 0 c).flushed 3 t = ((cfg0.win 3).blk t).view.read (Elt Ideal) (cntArr m c) := by
  have h127 : t.val % 128 = 127 := (flush0_3 t).mp hf
  have h0 : ¬t.val % 128 = 0 := by omega
  obtain ⟨e0, e1, e2⟩ := idx3 t
  show (cfg0.win 3).cut (grid0.coords t) ((dats m 0 c).after 3 t) = _
  rw [after0_3]
  funext j
  have hj0 : (j 0).val < 1 := (j 0).isLt
  have hj1 : (j 1).val < 16 := (j 1).isLt
  have hj2 : (j 2).val < 16 := (j 2).isLt
  show ((outsAt0 m c t.val t.isLt).2.1 : Vec Ideal S1x16x16 .f32) ((cfg0.win 3).xinj (grid0.coords t) j)
    = cntArr m c (((cfg0.win 3).blk t).view.emb j)
  rw [show (cfg0.win 3).xinj (grid0.coords t) j = ix3 (⟨(j 0).val, hj0⟩ : Fin 1) (⟨(j 1).val, hj1⟩ : Fin 16) (⟨(j 2).val, hj2⟩ : Fin 16) from
    funext fun a => by match a with | ⟨0, _⟩ => rfl | ⟨1, _⟩ => rfl | ⟨2, _⟩ => rfl]
  rw [(out_last m c t h0 h127 ⟨(j 0).val, hj0⟩ ⟨(j 1).val, hj1⟩ ⟨(j 2).val, hj2⟩).2,
    (acc_eq m c t.val t.isLt ⟨(j 1).val, hj1⟩ ⟨(j 2).val, hj2⟩).2]
  refine (cntArr_eq m c _ ⟨(j 1).val, hj1⟩ ⟨(j 2).val, hj2⟩ t.val ?_ ?_ ?_).symm
  · show win0_3.index t (1 : Fin 3) * 16 + 1 * (j 1).val = (j 1).val
    rw [e1]; omega
  · show win0_3.index t (2 : Fin 3) * 16 + 1 * (j 2).val = (j 2).val
    rw [e2]; omega
  · show 128 * (win0_3.index t (0 : Fin 3) * 1 + 1 * (j 0).val) + 127 = t.val
    rw [e0]; omega

/-- Every entry (p, cc, d) of the array lies in the block the last step of half p writes back. -/
theorem cover3 (c : Dev nD) (i : S2x16x16.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 16 := (i 2).isLt
  have hN : cfg0.N = 256 := N_0
  have ht : 128 * (i 0).val + 127 < cfg0.N := by rw [hN]; omega
  obtain ⟨e0, e1, e2⟩ := idx3 ⟨128 * (i 0).val + 127, ht⟩
  have e0' : win0_3.index ⟨128 * (i 0).val + 127, ht⟩ (0 : Fin 3) = (i 0).val :=
    e0.trans (by show (128 * (i 0).val + 127) / 128 = (i 0).val; omega)
  refine ⟨⟨128 * (i 0).val + 127, ht⟩, (flush0_3 _).mpr (by show (128 * (i 0).val + 127) % 128 = 127; omega), ?_⟩
  show i ∈ ((View.whole main_v2_1).slice (win0_3.rect ⟨128 * (i 0).val + 127, ht⟩)).set
  rw [View.set_slice_whole, Rect.mem_set_unit]
  intro a
  match a with
  | ⟨0, _⟩ =>
    show win0_3.index ⟨128 * (i 0).val + 127, ht⟩ (0 : Fin 3) * 1 ≤ (i 0).val
      ∧ (i 0).val < win0_3.index ⟨128 * (i 0).val + 127, ht⟩ (0 : Fin 3) * 1 + 1
    rw [e0']; omega
  | ⟨1, _⟩ =>
    show win0_3.index ⟨128 * (i 0).val + 127, ht⟩ (1 : Fin 3) * 16 ≤ (i 1).val
      ∧ (i 1).val < win0_3.index ⟨128 * (i 0).val + 127, ht⟩ (1 : Fin 3) * 16 + 16
    rw [e1]; omega
  | ⟨2, _⟩ =>
    show win0_3.index ⟨128 * (i 0).val + 127, ht⟩ (2 : Fin 3) * 16 ≤ (i 2).val
      ∧ (i 2).val < win0_3.index ⟨128 * (i 0).val + 127, ht⟩ (2 : Fin 3) * 16 + 16
    rw [e2]; omega

/-- The second result array likewise, for the counts. -/
theorem final3 (c : Dev nD) (p : Fin 2) (cc d : Fin 16) :
    ((dats m 0 c).arrAt 3 cfg0.N : Vec Ideal S2x16x16 .f32) (ix3 p cc d) = runAcc 128 (stepC m c cc d) (128 * p.val + 127) :=
  (congrFun ((dats m 0 c).arrAt_eq_of_cover 3 (cntArr m c) (flushed3 m c) (cover3 c)) (ix3 p cc d)).trans rfl

end Cert.KernelIdeal.Accum

end
-- ==== Proof.KTail.lean ====
/-
  The kernel's program, read: its result is the shared closing computation of the per-class sums and counts.

  After the grid the host adds the two halves of each result array, lays the 16 × 16 sums out as 256 classes (class
  16c + d at (c, d)), and applies the closing computation.
-/
import proofs.«427968_j43104291782997_3_alg».proof.Proof.Gen.KernelIdeal.Frame
import proofs.«427968_j43104291782997_3_alg».proof.Proof.SegDefs
import proofs.«427968_j43104291782997_3_alg».proof.Proof.SegSums
import proofs.«427968_j43104291782997_3_alg».proof.Proof.KBlocks
import proofs.«427968_j43104291782997_3_alg».proof.Proof.Accum
import Idealize.ShloMosaic.Lib.Pipeline.Value
import Idealize.ShloMosaic.Lib.StableHlo.Run
import Idealize.ShloMosaic.PureOps.Ideal.Laws

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen Cert.KernelIdeal.Blocks Cert.KernelIdeal.Accum Cert.Seg

variable (m : (ℓ : Loc nD τ sig) → Buf (Elt Ideal) ℓ)

/-- The two halves of a 2 × 16 × 16 array added and laid out as 256 classes: class r's entry is at (r / 16, r % 16).
    When each half's entry is the running sum after the half's last step, class r's entry is the sum over both halves
    of the 128 steps' terms. -/
theorem classes_of (A : Vec Ideal S2x16x16 .f32) (f : Fin 16 → Fin 16 → ℕ → EReal)
    (hA : ∀ (p : Fin 2) (cc d : Fin 16), A (ix3 p cc d) = runAcc 128 (f cc d) (128 * p.val + 127))
    (r : Fin 256) (hc : r.val / 16 < 16) (hd : r.val % 16 < 16) :
    shapeCast S256 (Host.reduceAdd A (constant (F := Ideal) S_ .f32 0x00000000#32) reducesTo_S2x16x16_S16x16_d0 h_S_)
        shapeCasts_S16x16_S256 (ix1 r)
      = ∑ p : Fin 2, ∑ s ∈ Finset.range 128, f ⟨r.val / 16, hc⟩ ⟨r.val % 16, hd⟩ (128 * p.val + s) := by
  rw [shapeCast_apply _ _ (ix1 r) (ix2 (⟨r.val / 16, hc⟩ : Fin 16) (⟨r.val % 16, hd⟩ : Fin 16)) (by
    rw [Shape.rowMajor_val_two, Shape.rowMajor_val_one]
    show r.val / 16 * 16 + r.val % 16 = r.val
    omega)]
  show Ideal.hostReduceAdd reducesTo_S2x16x16_S16x16_d0 _ _ _ = _
  have hred : S2x16x16.Reduces [0] S16x16 := by decide
  rw [Ideal.hostReduceAdd_single reducesTo_S2x16x16_S16x16_d0 hred]
  -- the entry of half p that is added into (c, d) is (p, c, d)
  have hl : ∀ p : Fin 2, hred.lift (ix2 (⟨r.val / 16, hc⟩ : Fin 16) (⟨r.val % 16, hd⟩ : Fin 16)) p
      = ix3 p (⟨r.val / 16, hc⟩ : Fin 16) (⟨r.val % 16, hd⟩ : Fin 16) := fun p => funext fun a => Fin.ext (by
    match a with
    | ⟨0, _⟩ => rfl
    | ⟨1, _⟩ => rfl
    | ⟨2, _⟩ => rfl)
  show Ideal.ofBits .f32 0x00000000#32
      + ∑ p : Fin 2, A (hred.lift (ix2 (⟨r.val / 16, hc⟩ : Fin 16) (⟨r.val % 16, hd⟩ : Fin 16)) p) = _
  rw [Ideal.ofBits_zero_f32, zero_add]
  exact Finset.sum_congr rfl fun p _ =>
    (congrArg A (hl p)).trans ((hA p _ _).trans (runAcc_last 128 (by decide) _ p.val))

/-- Class r is the class (r / 16, r % 16). -/
theorem class_ix (r : Fin 256) (hc : r.val / 16 < 16) (hd : r.val % 16 < 16) :
    (ix1 (⟨16 * (⟨r.val / 16, hc⟩ : Fin 16).val + (⟨r.val % 16, hd⟩ : Fin 16).val, by omega⟩ : Fin 256) : SK.Idx) = ix1 r := by
  refine congrArg ix1 (Fin.ext ?_)
  show 16 * (r.val / 16) + r.val % 16 = r.val
  omega

/-- The first result array's halves added and laid out are the per-class sums over the whole input. -/
theorem classes_sum (c : Dev nD) :
    shapeCast S256 (Host.reduceAdd ((dats m 0 c).arrAt 2 cfg0.N : Vec Ideal S2x16x16 .f32)
        (constant (F := Ideal) S_ .f32 0x00000000#32) reducesTo_S2x16x16_S16x16_d0 h_S_) shapeCasts_S16x16_S256
      = segSum (m ((c.tc : Thread nD τ).loc main_arg0)) (m ((c.tc : Thread nD τ).loc main_arg1)) := by
  funext k
  obtain ⟨r, rfl⟩ : ∃ r : Fin 256, k = ix1 r := ⟨k 0, eq_ix1 k⟩
  have hc : r.val / 16 < 16 := by have := r.isLt; omega
  have hd : r.val % 16 < 16 := Nat.mod_lt _ (by decide)
  rw [classes_of _ (stepS m c) (final2 m c) r hc hd]
  exact (segSum_blocks (m ((c.tc : Thread nD τ).loc main_arg0)) (m ((c.tc : Thread nD τ).loc main_arg1)) (xblk m c) (wblk m c) (xblk_apply m c) (wblk_apply m c)
    ⟨r.val / 16, hc⟩ ⟨r.val % 16, hd⟩).trans (congrArg _ (class_ix r hc hd))

/-- The second result array's halves added and laid out are the per-class counts over the whole input. -/
theorem classes_cnt (c : Dev nD) :
    shapeCast S256 (Host.reduceAdd ((dats m 0 c).arrAt 3 cfg0.N : Vec Ideal S2x16x16 .f32)
        (constant (F := Ideal) S_ .f32 0x00000000#32) reducesTo_S2x16x16_S16x16_d0 h_S_) shapeCasts_S16x16_S256
      = segCnt (m ((c.tc : Thread nD τ).loc main_arg1)) := by
  funext k
  obtain ⟨r, rfl⟩ : ∃ r : Fin 256, k = ix1 r := ⟨k 0, eq_ix1 k⟩
  have hc : r.val / 16 < 16 := by have := r.isLt; omega
  have hd : r.val % 16 < 16 := Nat.mod_lt _ (by decide)
  rw [classes_of _ (stepC m c) (final3 m c) r hc hd]
  exact (segCnt_blocks (m ((c.tc : Thread nD τ).loc main_arg1)) (wblk m c) (wblk_apply m c)
    ⟨r.val / 16, hc⟩ ⟨r.val % 16, hd⟩).trans (congrArg _ (class_ix r hc hd))

/-- What the host operations after the grid leave in the result buffer: the closing computation of the per-class sums
    and counts. -/
theorem tail_eq (c : Dev nD) :
    Pipeline.afterTail₀ cfgs (dats m) 0 (V0 m) [hostOps1] c main_v14
      = tailFn bcast_S_S256 reducesTo_S256_S_d0 h_S_
            (segSum (m ((c.tc : Thread nD τ).loc main_arg0)) (m ((c.tc : Thread nD τ).loc main_arg1)))
            (segCnt (m ((c.tc : Thread nD τ).loc main_arg1)))
            (m ((c.tc : Thread nD τ).loc main_arg2)) := by
  unfold Pipeline.afterTail₀
  show StableHlo.after hostOps1 _ (Proc.devRef .tc main_v14) = _
  after_results
  have e2 : Pipeline.withArrays (cfgs 0).spec c (V0 m c) (fun w => (dats m 0 c).arrAt w (cfgs 0).N) (Proc.devRef .tc main_v2_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v2_1)
      = (dats m 0 c).arrAt 3 cfg0.N := Pipeline.withArrays_arr spec0 launch0.win.arr_inj c _ _ 3
  have eT : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  rw [e2, e3, eT]
  show tailFn bcast_S_S256 reducesTo_S256_S_d0 h_S_
      (shapeCast S256 (Host.reduceAdd ((dats m 0 c).arrAt 2 cfg0.N : Vec Ideal S2x16x16 .f32)
        (constant (F := Ideal) S_ .f32 0x00000000#32) reducesTo_S2x16x16_S16x16_d0 h_S_) shapeCasts_S16x16_S256)
      (shapeCast S256 (Host.reduceAdd ((dats m 0 c).arrAt 3 cfg0.N : Vec Ideal S2x16x16 .f32)
        (constant (F := Ideal) S_ .f32 0x00000000#32) reducesTo_S2x16x16_S16x16_d0 h_S_) shapeCasts_S16x16_S256)
      (m ((c.tc : Thread nD τ).loc main_arg2)) = _
  rw [classes_sum m c, classes_cnt m c]

/-- The kernel program's run: the result at the closing computation of the per-class sums and counts of its arguments,
    the arguments unchanged. -/
theorem run_tail (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
        = tailFn bcast_S_S256 reducesTo_S256_S_d0 h_S_
            (segSum (m ((c.tc : Thread nD τ).loc main_arg0)) (m ((c.tc : Thread nD τ).loc main_arg1)))
            (segCnt (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.LibScatterVec.lean ====
/-
  An accumulating scatter onto a VECTOR and a gather from a vector, read at an index on the extended reals.

  The operand is a vector [R], the start indices a column [N, 1], the updates a vector [N]: update `k` is added to the
  entry its start index names (read signed, not clamped), and is dropped when that is outside the vector. The gather
  is the inverse reading: entry `k` of the result is the operand's entry at start index `k`, read signed and clamped
  into [0, S - 1].
-/
import Idealize.ShloMosaic.Lib.ValueIdx
import proofs.«427968_j43104291782997_3_alg».proof.Proof.LibScatterRead

noncomputable section

open scoped BigOperators

namespace Cert.SparseVec

open Idealize.ShloMosaic Idealize.ShloMosaic.ValueIdx

/-- The dimension numbers of the scatter onto a vector: no window axis, the operand's one axis inserted and named by
    the one entry of a start index, the index vector along axis 1. -/
abbrev vecDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- On the vector's one axis update `k` starts at entry `k` of the column of start indices, read signed. -/
theorem vec_start0 {R N w : Nat} (wf : ScatterDims.WF ⟨1, ![R]⟩ ⟨2, ![N, 1]⟩ ⟨1, ![N]⟩ [] [0] [0] 1)
    (idx : IVec ⟨2, ![N, 1]⟩ w) (k : Fin N) :
    (vecDims R N wf).start (ix1 k) idx 0 = (idx (ix2 k 0)).toInt := by
  unfold ScatterDims.start
  rw [dif_pos (show (0 : Fin 1) ∈ ([0] : List (Fin 1)) by decide)]
  have hsi : (vecDims R N wf).siIdx (ix1 k) ⟨List.idxOf (0 : Fin 1) (vecDims R N wf).scatterDimsToOperandDims,
      List.idxOf_lt_length_iff.2 (show (0 : Fin 1) ∈ ([0] : List (Fin 1)) by decide)⟩ = ix2 k 0 := by
    funext b; refine Fin.ext ?_
    match b with
    | ⟨0, _⟩ => rfl
    | ⟨1, _⟩ => rfl
  rw [hsi]

/-- There is no window: the vector's one axis is inserted. -/
theorem vec_window {R N : Nat} (wf : ScatterDims.WF ⟨1, ![R]⟩ ⟨2, ![N, 1]⟩ ⟨1, ![N]⟩ [] [0] [0] 1)
    (j : (⟨1, ![N]⟩ : Shape).Idx) (a : Fin 1) : (vecDims R N wf).window j a = 0 := by
  unfold ScatterDims.window
  refine dif_neg ?_
  show ¬ (a ∈ ((List.finRange 1).filter (· ∉ ([0] : List (Fin 1)))))
  revert a
  decide

/-- Update `k` lands on entry `r` exactly when its start index, read signed, is `r`. -/
theorem vec_lands_iff {R N w : Nat} (wf : ScatterDims.WF ⟨1, ![R]⟩ ⟨2, ![N, 1]⟩ ⟨1, ![N]⟩ [] [0] [0] 1)
    (idx : IVec ⟨2, ![N, 1]⟩ w) (k : Fin N) (r : Fin R) :
    (vecDims R N wf).resultIdx? (ix1 k) idx = some (ix1 r) ↔ (idx (ix2 k 0)).toInt = (r.val : Int) := by
  rw [Cert.SparseMM.resultIdx?_eq_some_iff]
  constructor
  · intro h
    have h0 := h 0
    rw [vec_start0, vec_window, Nat.cast_zero, add_zero] at h0
    exact h0
  · intro h a
    match a with
    | ⟨0, _⟩ =>
      show (vecDims R N wf).start (ix1 k) idx 0 + ((vecDims R N wf).window (ix1 k) 0 : Int) = (r.val : Int)
      rw [vec_start0, vec_window, Nat.cast_zero, add_zero]; exact h

/-- THE SCATTER ONTO A VECTOR READ AT r: the operand's entry plus the sum of the updates whose start index is r. -/
theorem scatterAdd_vec_apply {R N w : Nat} (wf : ScatterDims.WF ⟨1, ![R]⟩ ⟨2, ![N, 1]⟩ ⟨1, ![N]⟩ [] [0] [0] 1) {φ : FTy}
    (x : FVec Ideal ⟨1, ![R]⟩ φ) (idx : IVec ⟨2, ![N, 1]⟩ w) (upd : FVec Ideal ⟨1, ![N]⟩ φ) (r : Fin R) :
    Host.scatterAdd (vecDims R N wf) x idx upd (ix1 r)
      = x (ix1 r) + ∑ k ∈ Finset.univ.filter (fun k : Fin N => (idx (ix2 k 0)).toInt = (r.val : Int)), upd (ix1 k) := by
  show Ideal.hostScatterAdd (vecDims R N wf) x idx upd (ix1 r) = _
  unfold Ideal.hostScatterAdd
  refine congrArg (x (ix1 r) + ·) ?_
  -- the update indices are the positions 0 … N - 1: re-index the sum by them
  refine Finset.sum_equiv Cert.SparseMM.idxEquiv1 (fun j => ?_) (fun j _ => congrArg upd (eq_ix1 j))
  rw [Finset.mem_filter, Finset.mem_filter]
  refine and_congr (by simp) ?_
  rw [eq_ix1 j]
  exact vec_lands_iff wf idx (j 0) r

/-- The dimension numbers of the gather from a vector [S] at start indices [N, 1] into [N]. -/
abbrev vecGatherDims (S N : Nat) (wf : GatherDims.WF ⟨1, ![S]⟩ ⟨2, ![N, 1]⟩ ⟨1, ![N]⟩ [] [0] [] [0] [] 1 ![1]) :
    GatherDims ⟨1, ![S]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- THE GATHER FROM A VECTOR READ AT k: the operand at start index `k`, read signed and clamped into [0, S - 1]. -/
theorem gather_vec_apply {α : Type} {S N w : Nat} (hS : 0 < S)
    (wf : GatherDims.WF ⟨1, ![S]⟩ ⟨2, ![N, 1]⟩ ⟨1, ![N]⟩ [] [0] [] [0] [] 1 ![1])
    (x : (⟨1, ![S]⟩ : Shape).Idx → α) (idx : IVec ⟨2, ![N, 1]⟩ w) (k : Fin N) :
    Host.gather (vecGatherDims S N wf) x idx (ix1 k)
      = x (ix1 ⟨min (idx (ix2 k 0)).toInt.toNat (S - 1), by omega⟩) := by
  unfold Host.gather
  congr 1
  funext a
  refine Fin.ext ?_
  match a with
  | ⟨0, _⟩ =>
    -- the one axis is collapsed and is no batching axis: the operand coordinate is the clamped start alone
    show (vecGatherDims S N wf).start (ix1 k) idx 0 + (vecGatherDims S N wf).batchCoord (ix1 k) 0
      + (vecGatherDims S N wf).offCoord (ix1 k) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 1) ∈ ([0] : List (Fin 1)) by decide))]
    simp only [Nat.add_zero]
    unfold GatherDims.start
    rw [dif_pos (show (0 : Fin 1) ∈ ([0] : List (Fin 1)) by decide)]
    have hsi : (vecGatherDims S N wf).siIdx (ix1 k) ⟨List.idxOf (0 : Fin 1) (vecGatherDims S N wf).startIndexMap,
        List.idxOf_lt_length_iff.2 (show (0 : Fin 1) ∈ ([0] : List (Fin 1)) by decide)⟩ = ix2 k 0 := by
      funext c; refine Fin.ext ?_
      match c with
      | ⟨0, _⟩ => rfl
      | ⟨1, _⟩ => rfl
    rw [hsi]
    rfl

end Cert.SparseVec

end
-- ==== Proof.RefRead.lean ====
/-
  The reference, read: its result is the shared closing computation of the per-class sums and counts.

  The reference adds every value x(e) into entry idx(e) of a zero vector of 256 entries (an entry outside [0, 256) is
  dropped), and does the same with ones for the counts; the rest of its program is the closing computation.
-/
import proofs.«427968_j43104291782997_3_alg».proof.Proof.Gen.ReferenceIdeal.Run
import proofs.«427968_j43104291782997_3_alg».proof.Proof.LibScatterVec
import proofs.«427968_j43104291782997_3_alg».proof.Proof.SegDefs
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.Seg

/-- The bit pattern of the float one denotes the extended real one. -/
theorem ofBits_one_f32 : Ideal.ofBits .f32 0x3F800000#32 = 1 := by
  simp [Ideal.ofBits, Ideal.ieee, -EReal.coe_mul]; norm_num

/-- The column of start indices read at row `e` is the index word of element `e`. -/
theorem col_apply (idx : IVec S33554432 32) (e : Fin 33554432) :
    broadcastInDim S33554432x1 ![0] bcast_S33554432_S33554432x1_0 idx (ix2 e 0) = idx (ix1 e) :=
  broadcastInDim_apply _ bcast_S33554432_S33554432x1_0 idx (ix2 e 0) (ix1 e) (fun a => match a with
    | ⟨0, _⟩ => by show e.val = if (33554432 : Nat) = 1 then 0 else e.val; rw [if_neg (by decide)])

/-- Adding every value into the entry its index word names, from a zero vector, gives the per-class sums. -/
theorem scatter_sum (x : FVec Ideal S33554432 .f32) (idx : IVec S33554432 32) :
    Host.scatterAdd (F := Ideal) scatter_S256_S33554432x1_S33554432_n_0_0_1
        (broadcastInDim S256 ![] bcast_S_S256 (constant S_ .f32 0x00000000#32))
        (broadcastInDim S33554432x1 ![0] bcast_S33554432_S33554432x1_0 idx) x
      = segSum x idx := by
  funext k
  obtain ⟨r, rfl⟩ : ∃ r : Fin 256, k = ix1 r := ⟨k 0, eq_ix1 k⟩
  show Host.scatterAdd (Cert.SparseVec.vecDims 256 33554432 scatter_S256_S33554432x1_S33554432_n_0_0_1_wf) _ _ _ (ix1 r) = _
  rw [Cert.SparseVec.scatterAdd_vec_apply]
  -- the operand is zero everywhere
  show Ideal.ofBits .f32 0x00000000#32 + _ = _
  rw [Ideal.ofBits_zero_f32, zero_add]
  -- the start index of update e is the index word of element e
  exact Finset.sum_congr (Finset.filter_congr fun e _ => by rw [col_apply]) (fun _ _ => rfl)

/-- Adding a one per element into the entry its index word names, from a zero vector, gives the per-class counts. -/
theorem scatter_cnt (idx : IVec S33554432 32) :
    Host.scatterAdd (F := Ideal) scatter_S256_S33554432x1_S33554432_n_0_0_1
        (broadcastInDim S256 ![] bcast_S_S256 (constant S_ .f32 0x00000000#32))
        (broadcastInDim S33554432x1 ![0] bcast_S33554432_S33554432x1_0 idx)
        (broadcastInDim S33554432 ![] bcast_S_S33554432 (constant S_ .f32 0x3F800000#32))
      = segCnt idx := by
  funext k
  obtain ⟨r, rfl⟩ : ∃ r : Fin 256, k = ix1 r := ⟨k 0, eq_ix1 k⟩
  show Host.scatterAdd (Cert.SparseVec.vecDims 256 33554432 scatter_S256_S33554432x1_S33554432_n_0_0_1_wf) _ _ _ (ix1 r) = _
  rw [Cert.SparseVec.scatterAdd_vec_apply]
  show Ideal.ofBits .f32 0x00000000#32 + _ = _
  rw [Ideal.ofBits_zero_f32, zero_add]
  -- every update is the float one
  exact Finset.sum_congr (Finset.filter_congr fun e _ => by rw [col_apply]) (fun _ _ => ofBits_one_f32)

/-- The reference's run: the result at the closing computation of the per-class sums and counts of its arguments, the
    arguments unchanged. -/
theorem run_tail (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
        = tailFn bcast_S_S256 reducesTo_S256_S_d0 h_S_
            (segSum (m ((c.tc : Thread nD τ).loc main_arg0)) (m ((c.tc : Thread nD τ).loc main_arg1)))
            (segCnt (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans
      (congrArg₂ (fun s cnt => tailFn bcast_S_S256 reducesTo_S256_S_d0 h_S_ s cnt (m ((c.tc : Thread nD τ).loc main_arg2)))
        (scatter_sum (m ((c.tc : Thread nD τ).loc main_arg0)) (m ((c.tc : Thread nD τ).loc main_arg1)))
        (scatter_cnt (m ((c.tc : Thread nD τ).loc main_arg1)))), (h c).2⟩)
    (Cert.ReferenceIdeal.Value.run (F := Ideal) m ρ)

end Cert.ReferenceIdeal.RefValue

end
-- ==== Proof.lean ====
/-
  The certificate's claims.

  Both programs form, for each of 256 classes, the sum of the values whose index word names the class and the number
  of such values, and then apply one closing computation. The reference adds value by value into a vector of 256
  entries. The kernel splits a word into its high part c and its low four bits d, and for every pair (c, d) adds up
  [c matches] · x · [d matches] over the lanes of a block with a matrix product, over the eight rows of the block,
  over the 128 blocks of each half of the input, and finally over the two halves; a word read signed is 16c + d
  exactly when both parts match, so that is the same sum, arranged in blocks. The three programs' runs leave their
  arguments unchanged; the kernel's idealization rewrote nothing.
-/
import proofs.«427968_j43104291782997_3_alg».proof.Defs
import proofs.«427968_j43104291782997_3_alg».proof.Proof.Gen.Kernel
import proofs.«427968_j43104291782997_3_alg».proof.Proof.Gen.Kernel.Skeleton
import proofs.«427968_j43104291782997_3_alg».proof.Proof.Gen.Kernel.Launch
import proofs.«427968_j43104291782997_3_alg».proof.Proof.Gen.Kernel.Points
import proofs.«427968_j43104291782997_3_alg».proof.Proof.Gen.Kernel.Frame
import proofs.«427968_j43104291782997_3_alg».proof.Proof.Gen.KernelIdeal
import proofs.«427968_j43104291782997_3_alg».proof.Proof.Gen.KernelIdeal.Skeleton
import proofs.«427968_j43104291782997_3_alg».proof.Proof.Gen.KernelIdeal.Launch
import proofs.«427968_j43104291782997_3_alg».proof.Proof.Gen.KernelIdeal.Points
import proofs.«427968_j43104291782997_3_alg».proof.Proof.Gen.KernelIdeal.Frame
import proofs.«427968_j43104291782997_3_alg».proof.Proof.Gen.ReferenceIdeal
import proofs.«427968_j43104291782997_3_alg».proof.Proof.Gen.ReferenceIdeal.Run
import proofs.«427968_j43104291782997_3_alg».proof.Proof.Gen.Pre_finite_inputs
import proofs.«427968_j43104291782997_3_alg».proof.Proof.KTail
import proofs.«427968_j43104291782997_3_alg».proof.Proof.RefRead
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end at the closing computation of the same per-class sums and counts. -/
theorem algebraic : Cert.algebraic_KernelIdeal_ReferenceIdeal := by
  intro m ρ m' ρ' _ hagree
  refine ⟨_, Cert.KernelIdeal.KValue.run_tail m ρ, ?_⟩
  refine (θ_run Cert.ReferenceIdeal.defs _ _).mono (fun _ h c => ⟨(h c).1.trans ?_, (h c).2⟩)
    (Cert.ReferenceIdeal.RefValue.run_tail m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
